-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S3x1024x304 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x2x256x128x128 : Shape := ⟨5, ![3, 2, 256, 128, 128]⟩
abbrev S3x2x1x128x128 : Shape := ⟨5, ![3, 2, 1, 128, 128]⟩
abbrev S_ : Shape := ⟨0, ![]⟩

class Facts : Prop where
  bcast_S_S3x2x256x128x128 : S_.BroadcastsInDim S3x2x256x128x128 (![] : Fin 0 → Fin S3x2x256x128x128.rank)
  reducesTo_S3x2x256x128x128_S_d0_1_2_3_4 : S3x2x256x128x128.ReducesTo [0, 1, 2, 3, 4] S_
  h_S_ : 0 < S_.numel
  bcast_S_S3x2x1x128x128 : S_.BroadcastsInDim S3x2x1x128x128 (![] : Fin 0 → Fin S3x2x1x128x128.rank)
  reducesTo_S3x2x1x128x128_S_d0_1_2_3_4 : S3x2x1x128x128.ReducesTo [0, 1, 2, 3, 4] S_

variable [Facts]

def fn {F : FTy → Type} [FloatOps F] (main_arg0 : FVec F S3x2x256x128x128 .f32) (main_arg1 : IVec S3x2x1x128x128 32) : IVec S_ 1 :=
  let main_v0 : FVec F S3x2x256x128x128 .f32 := Host.absf main_arg0
  let main_cst : FVec F S_ .f32 := constant S_ .f32 0x7F800000#32
  let main_v1 : FVec F S3x2x256x128x128 .f32 := broadcastInDim S3x2x256x128x128 ![] bcast_S_S3x2x256x128x128 main_cst
  let main_v2 : IVec S3x2x256x128x128 1 := cmpf .olt main_v0 main_v1
  let main_c : IVec S_ 1 := constantI S_ 1 1#1
  let main_v3 : IVec S_ 1 := (fun x v => Host.reduce IntOp.andi x v reducesTo_S3x2x256x128x128_S_d0_1_2_3_4 h_S_) main_v2 main_c
  let main_c_0 : IVec S_ 32 := constantI S_ 32 0#32
  let main_v4 : IVec S3x2x1x128x128 32 := broadcastInDim S3x2x1x128x128 ![] bcast_S_S3x2x1x128x128 main_c_0
  let main_v5 : IVec S3x2x1x128x128 1 := cmpi .sge main_arg1 main_v4
  let main_c_1 : IVec S_ 1 := constantI S_ 1 1#1
  let main_v6 : IVec S_ 1 := (fun x v => Host.reduce IntOp.andi x v reducesTo_S3x2x1x128x128_S_d0_1_2_3_4 h_S_) main_v5 main_c_1
  let main_v7 : IVec S_ 1 := andi main_v3 main_v6
  let main_c_2 : IVec S_ 32 := constantI S_ 32 19#32
  let main_v8 : IVec S3x2x1x128x128 32 := broadcastInDim S3x2x1x128x128 ![] bcast_S_S3x2x1x128x128 main_c_2
  let main_v9 : IVec S3x2x1x128x128 1 := cmpi .slt main_arg1 main_v8
  let main_c_3 : IVec S_ 1 := constantI S_ 1 1#1
  let main_v10 : IVec S_ 1 := (fun x v => Host.reduce IntOp.andi x v reducesTo_S3x2x1x128x128_S_d0_1_2_3_4 h_S_) main_v9 main_c_3
  let main_v11 : IVec S_ 1 := andi main_v7 main_v10
  main_v11
-- ==== Kernel.lean ====
abbrev S3x2x256x128x128 : Shape := ⟨5, ![3, 2, 256, 128, 128]⟩
abbrev S3x2x1x128x128 : Shape := ⟨5, ![3, 2, 1, 128, 128]⟩
abbrev S2x8x128 : Shape := ⟨3, ![2, 8, 128]⟩
abbrev S3x1x256x8x128 : Shape := ⟨5, ![3, 1, 256, 8, 128]⟩
abbrev S3x1x1x8x128 : Shape := ⟨5, ![3, 1, 1, 8, 128]⟩
abbrev S1x8x128 : Shape := ⟨3, ![1, 8, 128]⟩
abbrev S8x128 : Shape := ⟨2, ![8, 128]⟩
abbrev S3x256x8x128 : Shape := ⟨4, ![3, 256, 8, 128]⟩
abbrev S3x8x128 : Shape := ⟨3, ![3, 8, 128]⟩
abbrev S3x1x8x128 : Shape := ⟨4, ![3, 1, 8, 128]⟩
abbrev S3x256x1024 : Shape := ⟨3, ![3, 256, 1024]⟩
abbrev S3x1024 : Shape := ⟨2, ![3, 1024]⟩
abbrev S1x1x304 : Shape := ⟨3, ![1, 1, 304]⟩
abbrev S3x1024x1 : Shape := ⟨3, ![3, 1024, 1]⟩
abbrev S3x1024x304 : Shape := ⟨3, ![3, 1024, 304]⟩
abbrev S3x256x304 : Shape := ⟨3, ![3, 256, 304]⟩
abbrev S3x304 : Shape := ⟨2, ![3, 304]⟩
abbrev S3x1x304 : Shape := ⟨3, ![3, 1, 304]⟩
abbrev S1x256x304 : Shape := ⟨3, ![1, 256, 304]⟩
abbrev S256x304 : Shape := ⟨2, ![256, 304]⟩
abbrev S304 : Shape := ⟨1, ![304]⟩
abbrev S1x304 : Shape := ⟨2, ![1, 304]⟩
abbrev S304x16 : Shape := ⟨2, ![304, 16]⟩
abbrev S1x16 : Shape := ⟨2, ![1, 16]⟩
abbrev S1x1x16 : Shape := ⟨3, ![1, 1, 16]⟩
abbrev S1 : Shape := ⟨1, ![1]⟩
abbrev S1x1x1 : Shape := ⟨3, ![1, 1, 1]⟩
abbrev S1x1 : Shape := ⟨2, ![1, 1]⟩
abbrev S2x1x1 : Shape := ⟨3, ![2, 1, 1]⟩
abbrev S2 : Shape := ⟨1, ![2]⟩
abbrev S_ : Shape := ⟨0, ![]⟩

abbrev nBuf : Space → Nat
  | .hbm => 22
  | .vmem => 8
  | .smem => 0
  | _ => 0

abbrev bufTy : (tb : Table) → Fin (tcTables nBuf tb) → BufTy
  | .hbm, ⟨0, _⟩ => ⟨S3x2x256x128x128, .f32⟩
  | .hbm, ⟨1, _⟩ => ⟨S3x2x1x128x128, .i32⟩
  | .hbm, ⟨2, _⟩ => ⟨S2x8x128, .f32⟩
  | .hbm, ⟨3, _⟩ => ⟨S2x8x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .i1⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S3x1x256x8x128, .f32⟩
  | .local _ .vmem, ⟨1, _⟩ => ⟨S3x1x256x8x128, .f32⟩
  | .local _ .vmem, ⟨2, _⟩ => ⟨S3x1x1x8x128, .i32⟩
  | .local _ .vmem, ⟨3, _⟩ => ⟨S3x1x1x8x128, .i32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S3x2x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_call0_v0 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x1x256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x1x1x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  inb_S3x1x256x8x128_S3x1x256x8x128_0_0_0_0_0 : ∀ a, (![0, 0, 0, 0, 0] : Fin 5 → Nat) a + S3x1x256x8x128.size a ≤ S3x1x256x8x128.size a
  h_S3x1x256x8x128 : 0 < S3x1x256x8x128.numel
  shapeCasts_S3x1x256x8x128_S3x256x8x128 : S3x1x256x8x128.ShapeCasts S3x256x8x128
  inb_S3x1x1x8x128_S3x1x1x8x128_0_0_0_0_0 : ∀ a, (![0, 0, 0, 0, 0] : Fin 5 → Nat) a + S3x1x1x8x128.size a ≤ S3x1x1x8x128.size a
  h_S3x1x1x8x128 : 0 < S3x1x1x8x128.numel
  shapeCasts_S3x1x1x8x128_S3x8x128 : S3x1x1x8x128.ShapeCasts S3x8x128
  reduces_S3x256x8x128_S3x8x128 : S3x256x8x128.Reduces [1] S3x8x128
  shapeCasts_S3x8x128_S3x1x8x128 : S3x8x128.ShapeCasts S3x1x8x128
  broadcasts_S3x1x8x128_S3x256x8x128 : S3x1x8x128.Broadcasts S3x256x8x128
  iota_S8x128_d1_w32 : S8x128.Iotas .tc 32 [1]
  natLt_1_32 : 1 < 32
  broadcasts_S1x8x128_S3x8x128 : S1x8x128.Broadcasts S3x8x128
  shapeCasts_S3x256x8x128_S3x256x1024 : S3x256x8x128.ShapeCasts S3x256x1024
  shapeCasts_S3x8x128_S3x1024 : S3x8x128.ShapeCasts S3x1024
  iota_S1x1x304_d2_w32 : S1x1x304.Iotas .tc 32 [2]
  shapeCasts_S3x1024_S3x1024x1 : S3x1024.ShapeCasts S3x1024x1
  broadcasts_S3x1024x1_S3x1024x304 : S3x1024x1.Broadcasts S3x1024x304
  broadcasts_S1x1x304_S3x1024x304 : S1x1x304.Broadcasts S3x1024x304
  bitsLt_bf16_f32 : FTy.bits .bf16 < FTy.bits .f32
  reduces_S3x1024x304_S3x304 : S3x1024x304.Reduces [1] S3x304
  shapeCasts_S3x304_S3x1x304 : S3x304.ShapeCasts S3x1x304
  broadcasts_S3x1x304_S3x256x304 : S3x1x304.Broadcasts S3x256x304
  slices_S3x256x304_o0_0_0_S1x256x304 : S3x256x304.Slices ![0, 0, 0] S1x256x304
  shapeCasts_S1x256x304_S256x304 : S1x256x304.ShapeCasts S256x304
  slices_S3x256x304_o1_0_0_S1x256x304 : S3x256x304.Slices ![1, 0, 0] S1x256x304
  slices_S3x256x304_o2_0_0_S1x256x304 : S3x256x304.Slices ![2, 0, 0] S1x256x304
  reduces_S256x304_S304 : S256x304.Reduces [0] S304
  slices_S3x304_o0_0_S1x304 : S3x304.Slices ![0, 0] S1x304
  shapeCasts_S1x304_S304 : S1x304.ShapeCasts S304
  slices_S3x304_o1_0_S1x304 : S3x304.Slices ![1, 0] S1x304
  slices_S3x304_o2_0_S1x304 : S3x304.Slices ![2, 0] S1x304
  iota_S304x16_d0_w32 : S304x16.Iotas .tc 32 [0]
  iota_S304x16_d1_w32 : S304x16.Iotas .tc 32 [1]
  shapeCasts_S304_S1x304 : S304.ShapeCasts S1x304
  shapeCasts_S1x16_S1x1x16 : S1x16.ShapeCasts S1x1x16
  reduces_S1x1x16_S1 : S1x1x16.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  broadcasts_S1x1_S8x128 : S1x1.Broadcasts S8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  dot_S3x256x1024_S3x1024x304_S3x256x304_2_1_1_2_0_0_wf : DotDims.WF S3x256x1024 S3x1024x304 S3x256x304 [2] [1] [1] [2] [0] [0]
  dot_S1x304_S304x16_S1x16_1_0_0_1_n_n_wf : DotDims.WF S1x304 S304x16 S1x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x1x256x8x128.size a ≤ S3x2x256x128x128.size a
  hwx0_0 : ∀ i : grid0.Coords, EltTy.bits .f32 = 32 ∨ (Rect.block (s := S3x2x256x128x128) S3x1x256x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x1x1x8x128.size a ≤ S3x2x1x128x128.size a
  hwx0_1 : ∀ i : grid0.Coords, EltTy.bits .i32 = 32 ∨ (Rect.block (s := S3x2x1x128x128) S3x1x1x8x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def dot_S3x256x1024_S3x1024x304_S3x256x304_2_1_1_2_0_0 : DotDims S3x256x1024 S3x1024x304 S3x256x304 where
  lhsContracting := [2]
  rhsContracting := [1]
  lhsNonContracting := [1]
  rhsNonContracting := [2]
  lhsBatch := [0]
  rhsBatch := [0]
  wf := dot_S3x256x1024_S3x1024x304_S3x256x304_2_1_1_2_0_0_wf
def dot_S1x304_S304x16_S1x16_1_0_0_1_n_n : DotDims S1x304 S304x16 S1x16 where
  lhsContracting := [1]
  rhsContracting := [0]
  lhsNonContracting := [0]
  rhsNonContracting := [1]
  lhsBatch := []
  rhsBatch := []
  wf := dot_S1x304_S304x16_S1x16_1_0_0_1_n_n_wf

abbrev win0_0 : Pipeline.Window sig grid0 :=
  Pipeline.Window.ofSpec (Memref.whole main_arg0) S3x1x256x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x1x1x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3x2x256x128x128 : Shape := ⟨5, ![3, 2, 256, 128, 128]⟩
abbrev S3x2x1x128x128 : Shape := ⟨5, ![3, 2, 1, 128, 128]⟩
abbrev S_ : Shape := ⟨0, ![]⟩
abbrev S3x2x128x128 : Shape := ⟨4, ![3, 2, 128, 128]⟩
abbrev S3x2x256x16x8x16x8 : Shape := ⟨7, ![3, 2, 256, 16, 8, 16, 8]⟩
abbrev S3x2x16x16x256x8x8 : Shape := ⟨7, ![3, 2, 16, 16, 256, 8, 8]⟩
abbrev S3x2x256x256x64 : Shape := ⟨5, ![3, 2, 256, 256, 64]⟩
abbrev S3x2x1x16x8x16x8 : Shape := ⟨7, ![3, 2, 1, 16, 8, 16, 8]⟩
abbrev S3x2x16x16x1x8x8 : Shape := ⟨7, ![3, 2, 16, 16, 1, 8, 8]⟩
abbrev S3x2x256x1x64 : Shape := ⟨5, ![3, 2, 256, 1, 64]⟩
abbrev S3x2x256x64 : Shape := ⟨4, ![3, 2, 256, 64]⟩
abbrev S3x2x256x64x1 : Shape := ⟨5, ![3, 2, 256, 64, 1]⟩
abbrev S19 : Shape := ⟨1, ![19]⟩
abbrev S1x1x1x1x19 : Shape := ⟨5, ![1, 1, 1, 1, 19]⟩
abbrev S3x2x256x64x19 : Shape := ⟨5, ![3, 2, 256, 64, 19]⟩
abbrev S3x2x256x19 : Shape := ⟨4, ![3, 2, 256, 19]⟩
abbrev S3x2x256x19x256 : Shape := ⟨5, ![3, 2, 256, 19, 256]⟩
abbrev S3x2x256x19x1 : Shape := ⟨5, ![3, 2, 256, 19, 1]⟩
abbrev S2x256x19 : Shape := ⟨3, ![2, 256, 19]⟩
abbrev S1x2x256x19x256 : Shape := ⟨5, ![1, 2, 256, 19, 256]⟩
abbrev S1x2x256x19 : Shape := ⟨4, ![1, 2, 256, 19]⟩
abbrev S2x256 : Shape := ⟨2, ![2, 256]⟩

abbrev nBuf : Space → Nat
  | .hbm => 95
  | .vmem => 0
  | .smem => 0
  | _ => 0

abbrev bufTy : (tb : Table) → Fin (tcTables nBuf tb) → BufTy
  | .hbm, ⟨0, _⟩ => ⟨S3x2x256x128x128, .f32⟩
  | .hbm, ⟨1, _⟩ => ⟨S3x2x1x128x128, .i32⟩
  | .hbm, ⟨2, _⟩ => ⟨S3x2x256x128x128, .f32⟩
  | .hbm, ⟨3, _⟩ => ⟨S_, .f32⟩
  | .hbm, ⟨4, _⟩ => ⟨S3x2x128x128, .f32⟩
  | .hbm, ⟨5, _⟩ => ⟨S3x2x1x128x128, .f32⟩
  | .hbm, ⟨6, _⟩ => ⟨S3x2x1x128x128, .f32⟩
  | .hbm, ⟨7, _⟩ => ⟨S_, .f32⟩
  | .hbm, ⟨8, _⟩ => ⟨S3x2x1x128x128, .f32⟩
  | .hbm, ⟨9, _⟩ => ⟨S3x2x1x128x128, .f32⟩
  | .hbm, ⟨10, _⟩ => ⟨S3x2x256x128x128, .f32⟩
  | .hbm, ⟨11, _⟩ => ⟨S3x2x256x128x128, .f32⟩
  | .hbm, ⟨12, _⟩ => ⟨S3x2x256x16x8x16x8, .f32⟩
  | .hbm, ⟨13, _⟩ => ⟨S3x2x16x16x256x8x8, .f32⟩
  | .hbm, ⟨14, _⟩ => ⟨S3x2x256x256x64, .f32⟩
  | .hbm, ⟨15, _⟩ => ⟨S3x2x1x16x8x16x8, .i32⟩
  | .hbm, ⟨16, _⟩ => ⟨S3x2x16x16x1x8x8, .i32⟩
  | .hbm, ⟨17, _⟩ => ⟨S3x2x256x1x64, .i32⟩
  | .hbm, ⟨18, _⟩ => ⟨S3x2x256x64, .i32⟩
  | .hbm, ⟨19, _⟩ => ⟨S3x2x256x64x1, .i32⟩
  | .hbm, ⟨20, _⟩ => ⟨S19, .i32⟩
  | .hbm, ⟨21, _⟩ => ⟨S1x1x1x1x19, .i32⟩
  | .hbm, ⟨22, _⟩ => ⟨S3x2x256x64x19, .i32⟩
  | .hbm, ⟨23, _⟩ => ⟨S3x2x256x64x19, .i32⟩
  | .hbm, ⟨24, _⟩ => ⟨S3x2x256x64x19, .i1⟩
  | .hbm, ⟨25, _⟩ => ⟨S3x2x256x64x19, .f32⟩
  | .hbm, ⟨26, _⟩ => ⟨S_, .f32⟩
  | .hbm, ⟨27, _⟩ => ⟨S3x2x256x19, .f32⟩
  | .hbm, ⟨28, _⟩ => ⟨S3x2x256x19x256, .f32⟩
  | .hbm, ⟨29, _⟩ => ⟨S_, .f32⟩
  | .hbm, ⟨30, _⟩ => ⟨S3x2x256x19, .f32⟩
  | .hbm, ⟨31, _⟩ => ⟨S3x2x256x19, .f32⟩
  | .hbm, ⟨32, _⟩ => ⟨S3x2x256x19x1, .f32⟩
  | .hbm, ⟨33, _⟩ => ⟨S3x2x256x19x256, .f32⟩
  | .hbm, ⟨34, _⟩ => ⟨S3x2x256x19x256, .f32⟩
  | .hbm, ⟨35, _⟩ => ⟨S_, .f32⟩
  | .hbm, ⟨36, _⟩ => ⟨S3x2x256x19, .f32⟩
  | .hbm, ⟨37, _⟩ => ⟨S3x2x256x19, .i1⟩
  | .hbm, ⟨38, _⟩ => ⟨S_, .i1⟩
  | .hbm, ⟨39, _⟩ => ⟨S2x256x19, .i1⟩
  | .hbm, ⟨40, _⟩ => ⟨S2x256x19, .f32⟩
  | .hbm, ⟨41, _⟩ => ⟨S1x2x256x19x256, .f32⟩
  | .hbm, ⟨42, _⟩ => ⟨S1x2x256x19x256, .f32⟩
  | .hbm, ⟨43, _⟩ => ⟨S_, .f32⟩
  | .hbm, ⟨44, _⟩ => ⟨S1x2x256x19x256, .f32⟩
  | .hbm, ⟨45, _⟩ => ⟨S1x2x256x19x256, .f32⟩
  | .hbm, ⟨46, _⟩ => ⟨S1x2x256x19x256, .f32⟩
  | .hbm, ⟨47, _⟩ => ⟨S1x2x256x19x256, .f32⟩
  | .hbm, ⟨48, _⟩ => ⟨S1x2x256x19x256, .f32⟩
  | .hbm, ⟨49, _⟩ => ⟨S1x2x256x19x256, .f32⟩
  | .hbm, ⟨50, _⟩ => ⟨S_, .f32⟩
  | .hbm, ⟨51, _⟩ => ⟨S1x2x256x19, .f32⟩
  | .hbm, ⟨52, _⟩ => ⟨S_, .f32⟩
  | .hbm, ⟨53, _⟩ => ⟨S1x2x256x19, .f32⟩
  | .hbm, ⟨54, _⟩ => ⟨S1x2x256x19, .f32⟩
  | .hbm, ⟨55, _⟩ => ⟨S_, .f32⟩
  | .hbm, ⟨56, _⟩ => ⟨S2x256x19, .f32⟩
  | .hbm, ⟨57, _⟩ => ⟨S2x256x19, .f32⟩
  | .hbm, ⟨58, _⟩ => ⟨S_, .f32⟩
  | .hbm, ⟨59, _⟩ => ⟨S2x256, .f32⟩
  | .hbm, ⟨60, _⟩ => ⟨S_, .f32⟩
  | .hbm, ⟨61, _⟩ => ⟨S2x256, .f32⟩
  | .hbm, ⟨62, _⟩ => ⟨S_, .f32⟩
  | .hbm, ⟨63, _⟩ => ⟨S2x256, .f32⟩
  | .hbm, ⟨64, _⟩ => ⟨S2x256, .f32⟩
  | .hbm, ⟨65, _⟩ => ⟨S_, .f32⟩
  | .hbm, ⟨66, _⟩ => ⟨S2x256, .f32⟩
  | .hbm, ⟨67, _⟩ => ⟨S2x256, .f32⟩
  | .hbm, ⟨68, _⟩ => ⟨S_, .f32⟩
  | .hbm, ⟨69, _⟩ => ⟨S2x256, .f32⟩
  | .hbm, ⟨70, _⟩ => ⟨S2x256, .i1⟩
  | .hbm, ⟨71, _⟩ => ⟨S2x256, .f32⟩
  | .hbm, ⟨72, _⟩ => ⟨S_, .f32⟩
  | .hbm, ⟨73, _⟩ => ⟨S_, .f32⟩
  | .hbm, ⟨74, _⟩ => ⟨S2x256, .f32⟩
  | .hbm, ⟨75, _⟩ => ⟨S2x256, .f32⟩
  | .hbm, ⟨76, _⟩ => ⟨S_, .f32⟩
  | .hbm, ⟨77, _⟩ => ⟨S2x256, .f32⟩
  | .hbm, ⟨78, _⟩ => ⟨S2x256, .i1⟩
  | .hbm, ⟨79, _⟩ => ⟨S2x256, .i32⟩
  | .hbm, ⟨80, _⟩ => ⟨S_, .i32⟩
  | .hbm, ⟨81, _⟩ => ⟨S_, .i32⟩
  | .hbm, ⟨82, _⟩ => ⟨S_, .f32⟩
  | .hbm, ⟨83, _⟩ => ⟨S_, .f32⟩
  | .hbm, ⟨84, _⟩ => ⟨S_, .i1⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S3x2x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_12 : Ref sig .tc := ⟨.hbm, 72, rfl⟩
abbrev main_call1_v0 : Ref sig .tc := ⟨.hbm, 73, rfl⟩
abbrev main_call1_v1 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_14 : Ref sig .tc := ⟨.hbm, 80, rfl⟩
abbrev main_v56 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩
abbrev main_cst_16 : Ref sig .tc := ⟨.hbm, 85, rfl⟩
abbrev main_v59 : Ref sig .tc := ⟨.hbm, 86, rfl⟩
abbrev main_cst_17 : Ref sig .tc := ⟨.hbm, 87, rfl⟩
abbrev main_v60 : Ref sig .tc := ⟨.hbm, 88, rfl⟩
abbrev main_v61 : Ref sig .tc := ⟨.hbm, 89, rfl⟩
abbrev main_cst_18 : Ref sig .tc := ⟨.hbm, 90, rfl⟩
abbrev main_call2_v0 : Ref sig .tc := ⟨.hbm, 91, rfl⟩
abbrev main_v62 : Ref sig .tc := ⟨.hbm, 92, rfl⟩
abbrev main_cst_19 : Ref sig .tc := ⟨.hbm, 93, rfl⟩
abbrev main_v63 : Ref sig .tc := ⟨.hbm, 94, rfl⟩

abbrev nD : Nat := 1
abbrev τ : Topo := Topo.v7x

variable {F : FTy → Type} [FloatOps F]

class Facts₀ : Prop where
  reducesTo_S3x2x256x128x128_S3x2x128x128_d2 : S3x2x256x128x128.ReducesTo [2] S3x2x128x128
  h_S_ : 0 < S_.numel
  bcast_S3x2x128x128_S3x2x1x128x128_0_1_3_4 : S3x2x128x128.BroadcastsInDim S3x2x1x128x128 (![0, 1, 3, 4] : Fin 4 → Fin S3x2x1x128x128.rank)
  bcast_S_S3x2x1x128x128 : S_.BroadcastsInDim S3x2x1x128x128 (![] : Fin 0 → Fin S3x2x1x128x128.rank)
  bcast_S3x2x1x128x128_S3x2x256x128x128_0_1_2_3_4 : S3x2x1x128x128.BroadcastsInDim S3x2x256x128x128 (![0, 1, 2, 3, 4] : Fin 5 → Fin S3x2x256x128x128.rank)
  shapeCasts_S3x2x256x128x128_S3x2x256x16x8x16x8 : S3x2x256x128x128.ShapeCasts S3x2x256x16x8x16x8
  transposes_S3x2x256x16x8x16x8_S3x2x16x16x256x8x8_0_1_3_5_2_4_6 : S3x2x256x16x8x16x8.Transposes [0, 1, 3, 5, 2, 4, 6] S3x2x16x16x256x8x8
  shapeCasts_S3x2x16x16x256x8x8_S3x2x256x256x64 : S3x2x16x16x256x8x8.ShapeCasts S3x2x256x256x64
  shapeCasts_S3x2x1x128x128_S3x2x1x16x8x16x8 : S3x2x1x128x128.ShapeCasts S3x2x1x16x8x16x8
  transposes_S3x2x1x16x8x16x8_S3x2x16x16x1x8x8_0_1_3_5_2_4_6 : S3x2x1x16x8x16x8.Transposes [0, 1, 3, 5, 2, 4, 6] S3x2x16x16x1x8x8
  shapeCasts_S3x2x16x16x1x8x8_S3x2x256x1x64 : S3x2x16x16x1x8x8.ShapeCasts S3x2x256x1x64
  shapeCasts_S3x2x256x1x64_S3x2x256x64 : S3x2x256x1x64.ShapeCasts S3x2x256x64
  bcast_S3x2x256x64_S3x2x256x64x1_0_1_2_3 : S3x2x256x64.BroadcastsInDim S3x2x256x64x1 (![0, 1, 2, 3] : Fin 4 → Fin S3x2x256x64x1.rank)
  bcast_S19_S1x1x1x1x19_4 : S19.BroadcastsInDim S1x1x1x1x19 (![4] : Fin 1 → Fin S1x1x1x1x19.rank)
  bcast_S3x2x256x64x1_S3x2x256x64x19_0_1_2_3_4 : S3x2x256x64x1.BroadcastsInDim S3x2x256x64x19 (![0, 1, 2, 3, 4] : Fin 5 → Fin S3x2x256x64x19.rank)
  bcast_S1x1x1x1x19_S3x2x256x64x19_0_1_2_3_4 : S1x1x1x1x19.BroadcastsInDim S3x2x256x64x19 (![0, 1, 2, 3, 4] : Fin 5 → Fin S3x2x256x64x19.rank)
  reducesTo_S3x2x256x64x19_S3x2x256x19_d3 : S3x2x256x64x19.ReducesTo [3] S3x2x256x19
  bcast_S_S3x2x256x19 : S_.BroadcastsInDim S3x2x256x19 (![] : Fin 0 → Fin S3x2x256x19.rank)
  bcast_S3x2x256x19_S3x2x256x19x1_0_1_2_3 : S3x2x256x19.BroadcastsInDim S3x2x256x19x1 (![0, 1, 2, 3] : Fin 4 → Fin S3x2x256x19x1.rank)
  bcast_S3x2x256x19x1_S3x2x256x19x256_0_1_2_3_4 : S3x2x256x19x1.BroadcastsInDim S3x2x256x19x256 (![0, 1, 2, 3, 4] : Fin 5 → Fin S3x2x256x19x256.rank)
  reducesTo_S3x2x256x19_S2x256x19_d0 : S3x2x256x19.ReducesTo [0] S2x256x19
  slices_S3x2x256x19x256_S1x2x256x19x256_0_0_0_0_0 : S3x2x256x19x256.Slices ![0, 0, 0, 0, 0] S1x2x256x19x256
  slices_S3x2x256x19x256_S1x2x256x19x256_1_0_0_0_0 : S3x2x256x19x256.Slices ![1, 0, 0, 0, 0] S1x2x256x19x256
  bcast_S_S1x2x256x19x256 : S_.BroadcastsInDim S1x2x256x19x256 (![] : Fin 0 → Fin S1x2x256x19x256.rank)
  slices_S3x2x256x19x256_S1x2x256x19x256_2_0_0_0_0 : S3x2x256x19x256.Slices ![2, 0, 0, 0, 0] S1x2x256x19x256
  reducesTo_S1x2x256x19x256_S1x2x256x19_d4 : S1x2x256x19x256.ReducesTo [4] S1x2x256x19
  bcast_S_S1x2x256x19 : S_.BroadcastsInDim S1x2x256x19 (![] : Fin 0 → Fin S1x2x256x19.rank)
  reducesTo_S1x2x256x19_S2x256x19_d0 : S1x2x256x19.ReducesTo [0] S2x256x19
  reducesTo_S2x256x19_S2x256_d2 : S2x256x19.ReducesTo [2] S2x256
  bcast_S_S2x256 : S_.BroadcastsInDim S2x256 (![] : Fin 0 → Fin S2x256.rank)
  natLt_1_32 : 1 < 32
  reducesTo_S2x256_S_d0_1 : S2x256.ReducesTo [0, 1] S_
  dot_S3x2x256x64x19_S3x2x256x256x64_S3x2x256x19x256_3_4_4_3_012_012_wf : DotDims.WF S3x2x256x64x19 S3x2x256x256x64 S3x2x256x19x256 [3] [4] [4] [3] [0, 1, 2] [0, 1, 2]

variable [Facts₀]

def dot_S3x2x256x64x19_S3x2x256x256x64_S3x2x256x19x256_3_4_4_3_012_012 : DotDims S3x2x256x64x19 S3x2x256x256x64 S3x2x256x19x256 where
  lhsContracting := [3]
  rhsContracting := [4]
  lhsNonContracting := [4]
  rhsNonContracting := [3]
  lhsBatch := [0, 1, 2]
  rhsBatch := [0, 1, 2]
  wf := dot_S3x2x256x64x19_S3x2x256x256x64_S3x2x256x19x256_3_4_4_3_012_012_wf

class Facts : Prop extends Facts₀ where

variable [Facts]
-- ==== Proof.Spec.lean ====
/-
  The loss as ONE function of the two argument arrays, over the extended reals.

  The features `x : [3, 2, 256, 128, 128]` (frame, sample, channel, row, column) are normalised per pixel over the
  channel axis (the norm floored at a small positive constant), the image is cut into 16 × 16 patches of 8 × 8 pixels, and in
  every patch and for every one of the 19 labels the normalised features of the pixels carrying the label are averaged
  (a label absent from the patch has count 0, floored at 1 in the quotient). A label is valid in a patch when it occurs there
  in all three frames; the patch's loss is the mean over its valid labels of the channel-mean absolute second difference in
  time of the three averages, and the result is the mean of the patch losses over the patches with a valid label.

  Everything is stated first for ONE row-block of 8 rows (`px`, `lb`: the block's pixels and labels), patch by patch
  along the columns, then summed over the two samples and the sixteen row-blocks.
-/
import Idealize.ShloMosaic.PureOps.Ideal
import Idealize.ShloMosaic.PureOps.Ideal.Laws
import Idealize.ShloMosaic.Lib.ValueIdx

noncomputable section

namespace Cert.Spec

open Idealize.ShloMosaic

/-- The features' shape and the labels' shape. -/
abbrev SX : Shape := ⟨5, ![3, 2, 256, 128, 128]⟩
abbrev SM : Shape := ⟨5, ![3, 2, 1, 128, 128]⟩

/-- The floor of a pixel's norm, and the constants 1, 2 and 256, each as the extended real its f32 word denotes. -/
abbrev eps : EReal := Ideal.ofBits .f32 0x2B8CBCCC#32
abbrev one : EReal := Ideal.ofBits .f32 0x3F800000#32
abbrev two : EReal := Ideal.ofBits .f32 0x40000000#32
abbrev c256 : EReal := Ideal.ofBits .f32 0x43800000#32

/-- Position `q * 8 + r` on an axis of 128 cut into 16 stretches of 8. -/
def at8 (q : Fin 16) (r : Fin 8) : Fin 128 := ⟨q.val * 8 + r.val, by omega⟩

/-- Row-major positions: pixel (h, w) of an 8 × 128 row-block among its 1024; (patch, label) among 16 × 19 = 304;
    patch (rb, cb) among the 256; pixel (hi, wi) of a patch among its 64. -/
def hw (h : Fin 8) (w : Fin 128) : Fin 1024 := ⟨h.val * 128 + w.val, by omega⟩
def ek (cb : Fin 16) (k : Fin 19) : Fin 304 := ⟨cb.val * 19 + k.val, by omega⟩
def pq (rb cb : Fin 16) : Fin 256 := ⟨rb.val * 16 + cb.val, by omega⟩
def bq (hi wi : Fin 8) : Fin 64 := ⟨hi.val * 8 + wi.val, by omega⟩

section Block

variable (px : Fin 3 → Fin 256 → Fin 8 → Fin 128 → EReal) (lb : Fin 3 → Fin 8 → Fin 128 → BitVec 32)

/-- A pixel's channel norm, floored. -/
def nrm (f : Fin 3) (h : Fin 8) (w : Fin 128) : EReal :=
  max (Ideal.sqrt (∑ c : Fin 256, px f c h w * px f c h w)) eps

/-- The normalised feature. -/
def xn (f : Fin 3) (c : Fin 256) (h : Fin 8) (w : Fin 128) : EReal := Ideal.div (px f c h w) (nrm px f h w)

/-- 1 where the pixel carries label `k`, else 0. -/
def oh (f : Fin 3) (h : Fin 8) (w : Fin 128) (k : Fin 19) : EReal := if lb f h w = BitVec.ofNat 32 k.val then 1 else 0

/-- How many pixels of patch `cb` carry label `k` in frame `f`. -/
def cnt (f : Fin 3) (cb : Fin 16) (k : Fin 19) : EReal := ∑ h : Fin 8, ∑ r : Fin 8, oh lb f h (at8 cb r) k

/-- The sum of channel `c` of the normalised features over those pixels. -/
def psum (f : Fin 3) (c : Fin 256) (cb : Fin 16) (k : Fin 19) : EReal :=
  ∑ h : Fin 8, ∑ r : Fin 8, xn px f c h (at8 cb r) * oh lb f h (at8 cb r) k

/-- Their average (the count floored at 1). -/
def proto (f : Fin 3) (c : Fin 256) (cb : Fin 16) (k : Fin 19) : EReal :=
  Ideal.div (psum px lb f c cb k) (max (cnt lb f cb k) one)

/-- The second difference in time of the three frames' averages. -/
def dd (c : Fin 256) (cb : Fin 16) (k : Fin 19) : EReal :=
  proto px lb 0 c cb k - two * proto px lb 1 c cb k + proto px lb 2 c cb k

/-- Its absolute value averaged over the channels. -/
def l1 (cb : Fin 16) (k : Fin 19) : EReal :=
  Ideal.div (∑ c : Fin 256, max (dd px lb c cb k) (-(dd px lb c cb k))) c256

/-- 1 where label `k` occurs in patch `cb` in all three frames, else 0. -/
def vl (cb : Fin 16) (k : Fin 19) : EReal :=
  if (0 < cnt lb 0 cb k ∧ 0 < cnt lb 1 cb k) ∧ 0 < cnt lb 2 cb k then 1 else 0

/-- The patch's loss summed over its valid labels, and the number of valid labels. -/
def pp (cb : Fin 16) : EReal := ∑ k : Fin 19, l1 px lb cb k * vl lb cb k
def nc (cb : Fin 16) : EReal := ∑ k : Fin 19, vl lb cb k

/-- The patch's loss (0 for a patch with no valid label), and whether it has a valid label. -/
def ls (cb : Fin 16) : EReal := if 0 < nc lb cb then Ideal.div (pp px lb cb) (max (nc lb cb) one * one) else 0
def ind (cb : Fin 16) : EReal := if 0 < nc lb cb then 1 else 0

/-- The row-block's two contributions. -/
def blockLoss : EReal := ∑ cb : Fin 16, ls px lb cb
def blockCount : EReal := ∑ cb : Fin 16, ind lb cb

end Block

variable (x : SX.Idx → EReal) (mk : SM.Idx → BitVec 32)

/-- Row-block `rb` of sample `n`: its pixels and its labels. -/
def blkPx (n : Fin 2) (rb : Fin 16) : Fin 3 → Fin 256 → Fin 8 → Fin 128 → EReal :=
  fun f c h w => x (ValueIdx.ix5 f n c (at8 rb h) w)
def blkLb (n : Fin 2) (rb : Fin 16) : Fin 3 → Fin 8 → Fin 128 → BitVec 32 :=
  fun f h w => mk (ValueIdx.ix5 f n (0 : Fin 1) (at8 rb h) w)

def totalLoss : EReal := ∑ n : Fin 2, ∑ rb : Fin 16, blockLoss (blkPx x n rb) (blkLb mk n rb)
def totalCount : EReal := ∑ n : Fin 2, ∑ rb : Fin 16, blockCount (blkLb mk n rb)

/-- The loss. -/
def result : EReal :=
  (if 0 < totalCount mk then Ideal.div (totalLoss x mk) (max (totalCount mk) one) else 0) * one

end Cert.Spec

end
-- ==== Proof.PreLabels.lean ====
/-
  The precondition read back: every label lies in the label range, 0 ≤ label < 19.
-/
import proofs.«116369_j89309549953719_1_alg».proof.Pre_finite_inputs
import proofs.«116369_j89309549953719_1_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

open Idealize.ShloMosaic Idealize.ShloMosaic.TcCoe Idealize.SL.Sem Idealize.ShloMosaic.ValueIdx

namespace Cert.PreLabels

open Cert.Pre_finite_inputs

/-- Where the precondition holds, every label, read as a natural number, is below 19. -/
theorem labels_lt (x : FVec Ideal S3x2x256x128x128 .f32) (mk : IVec S3x2x1x128x128 32)
    (h : Cert.Pre_finite_inputs.fn (F := Ideal) x mk = fun _ => 1#1) (i : S3x2x1x128x128.Idx) : (mk i).toNat < 19 := by
  -- the one element of the precondition is a conjunction of three all-reductions
  have h0 := congrFun h ValueIdx.ix0
  dsimp only [Cert.Pre_finite_inputs.fn] at h0
  obtain ⟨h12, h3⟩ := IntOp.andi_eq_one.1 h0
  obtain ⟨_, h2⟩ := IntOp.andi_eq_one.1 h12
  haveI : Subsingleton S_.Idx := ⟨fun a b => funext fun d => d.elim0⟩
  -- an all-reduction by conjunction that is one had a one at every index
  have hge := Host.reduce_andi_all _ _ _ _ _ h2 i
  have hlt := Host.reduce_andi_all _ _ _ _ _ h3 i
  -- the two signed comparisons at index i: 0 ≤ label and label < 19
  have hge' : (0#32 : BitVec 32).toInt ≤ (mk i).toInt := IntOp.cmpi_sge.1 hge
  have hlt' : (mk i).toInt < (19#32 : BitVec 32).toInt := IntOp.cmpi_slt.1 hlt
  rw [show (0#32 : BitVec 32).toInt = 0 from by decide] at hge'
  rw [show (19#32 : BitVec 32).toInt = 19 from by decide] at hlt'
  -- a word whose signed value is nonnegative reads the same unsigned
  have hc := BitVec.toInt_eq_toNat_cond (mk i)
  split at hc <;> omega

end Cert.PreLabels

end
-- ==== Proof.KPieces.lean ====
/-
  What one grid point of the kernel leaves in its two output blocks, as values of the point's input blocks.
  The body adds, to every entry of the running loss block, the row-block's summed patch loss, and to every entry of the
  running count block the number of its patches with a valid label; at the first row-block of a sample both blocks are
  first reset to zero.
-/
import proofs.«116369_j89309549953719_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.KV

open Cert.KernelIdeal Cert.KernelIdeal.Gen

variable {F : FTy → Type} [FloatOps F]

theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- Per frame and (patch, label): how many pixels of the row-block carry the label in the patch. -/
def cntsOf (x1 : Vec F S3x1x1x8x128 .i32) : FVec F S3x304 .f32 := k0_pay10 (F := F) (k0_pay5 x1) k0_pay7 k0_pay8
/-- Per (patch, label): the channel mean of the absolute second difference in time of the label's average feature. -/
def l1Of (x0 : Vec F S3x1x256x8x128 .f32) (x1 : Vec F S3x1x1x8x128 .i32) : FVec F S304 .f32 :=
  k0_pay11 (k0_pay5 x1) (k0_pay6 x0) k0_pay7 k0_pay8
/-- Per (patch, label): present in frames 0 and 1. -/
def v86Of (x1 : Vec F S3x1x1x8x128 .i32) : IVec S304 1 := k0_pay12 (F := F) (k0_pay5 x1) k0_pay7 k0_pay8

/-- The loss block after the point: the block before, plus the row-block's loss in every entry. -/
def lossOut (x0 : Vec F S3x1x256x8x128 .f32) (x1 : Vec F S3x1x1x8x128 .i32) (prev : Vec F S1x8x128 .f32) : Vec F S1x8x128 .f32 :=
  k0_pay1 (k0_pay15 (cntsOf x1) (l1Of x0 x1) (v86Of (F := F) x1)) (k0_pay16 (cntsOf x1) (v86Of (F := F) x1))
    (k0_pay17 (cntsOf x1) (v86Of (F := F) x1)) prev
/-- The count block after the point. -/
def countOut (x1 : Vec F S3x1x1x8x128 .i32) (prev : Vec F S1x8x128 .f32) : Vec F S1x8x128 .f32 :=
  k0_pay2 (k0_pay16 (cntsOf x1) (v86Of (F := F) x1)) prev

/-- A row-block's pixels and labels by frame, channel, row and column (its unit sample and unit label axes dropped). -/
def pxOf (x0 : Vec Ideal S3x1x256x8x128 .f32) : Fin 3 → Fin 256 → Fin 8 → Fin 128 → EReal :=
  fun f c h w => x0 (ix5 f (0 : Fin 1) c h w)
def lbOf (x1 : Vec Ideal S3x1x1x8x128 .i32) : Fin 3 → Fin 8 → Fin 128 → BitVec 32 :=
  fun f h w => x1 (ix5 f (0 : Fin 1) (0 : Fin 1) h w)

variable (c : Dev nD) (i : grid0.Coords) (a2 : Memref sig .tc .vmem S3x1x256x8x128 .f32) (h2 : a2.IsWhole)
    (a3 : Memref sig .tc .vmem S3x1x1x8x128 .i32) (h3 : a3.IsWhole) (a4 : Memref sig .tc .vmem S1x8x128 .f32) (h4 : a4.IsWhole)
    (a5 : Memref sig .tc .vmem S1x8x128 .f32) (h5 : a5.IsWhole)
    (x0 : Vec F S3x1x256x8x128 .f32) (x1 : Vec F S3x1x1x8x128 .i32) (xo2 xo3 : Vec F S1x8x128 .f32)

/-- A later row-block of a sample: the loss block found is updated. -/
theorem out_B_2 (hc : ¬cond0_0 i) : out0_B_2 c i a2 h2 a3 h3 a4 h4 a5 h5 hc x0 x1 xo2 xo3 = lossOut x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread, View.ld_unit_zero (S := S1x8x128) hz3,
    View.ld_unit_zero (S := S3x1x1x8x128) hz5, View.ld_unit_zero (S := S3x1x256x8x128) hz5]
  rfl

theorem out_B_3 (hc : ¬cond0_0 i) : out0_B_3 c i a2 h2 a3 h3 a4 h4 a5 h5 hc x0 x1 xo2 xo3 = countOut x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz3]
  simp only [View.readAt_eq_ld, h2.read_unread, h3.read_unread, h4.read_unread, h5.read_unread, View.ld_unit_zero (S := S1x8x128) hz3,
    View.ld_unit_zero (S := S3x1x1x8x128) hz5, View.ld_unit_zero (S := S3x1x256x8x128) hz5]
  rfl

/-- The first row-block of a sample: the blocks are reset to zero, then updated. -/
theorem out_A_2 (hc : cond0_0 i) : out0_A_2 c i a2 h2 a3 h3 a4 h4 a5 h5 hc x0 x1 = lossOut x0 x1 k0_pay3 := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, View.ld_unit_zero (S := S1x8x128) hz3,
    View.ld_unit_zero (S := S3x1x1x8x128) hz5, View.ld_unit_zero (S := S3x1x256x8x128) hz5]
  rfl

theorem out_A_3 (hc : cond0_0 i) : out0_A_3 c i a2 h2 a3 h3 a4 h4 a5 h5 hc x0 x1 = countOut x1 k0_pay4 := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, h5.read_unread, View.ld_unit_zero (S := S1x8x128) hz3,
    View.ld_unit_zero (S := S3x1x1x8x128) hz5, View.ld_unit_zero (S := S3x1x256x8x128) hz5]
  rfl

end Cert.KernelIdeal.KV

end
-- ==== Proof.KInt.lean ====
/-
  The kernel's two 0/1 matrices, read at an index. The first marks, for pixel (h, w) of the row-block and code
  e = patch · 19 + label, whether the pixel lies in that patch and carries that label (the code of a pixel is
  (w / 8) · 19 + its label, and a label below 19 makes the code determine both); the second marks whether code e
  belongs to patch cb, that is e / 19 = cb.
-/
import proofs.«116369_j89309549953719_1_alg».proof.Proof.KPieces
import proofs.«116369_j89309549953719_1_alg».proof.Proof.Spec
import Idealize.ShloMosaic.PureOps.Ideal
import Idealize.ShloMosaic.PureOps.Ideal.Laws

noncomputable section

open Idealize.ShloMosaic Idealize.ShloMosaic.TcCoe Idealize.SL.Sem Idealize.ShloMosaic.ValueIdx

namespace Cert.KernelIdeal.KV

open Cert.KernelIdeal Cert.KernelIdeal.Gen

/-! ## Words: signed division of a non-negative word by a positive literal

Both matrices divide a non-negative 32-bit word (a column below 128, a code below 304) by a positive literal (8, 19)
rounding toward minus infinity: the quotient rounded toward zero, lowered by one where the signs of dividend and divisor
differ and the remainder is not zero. On a non-negative dividend the signs differ only at zero, where the remainder is
zero, so the quotient is never lowered and is the quotient of naturals. -/

/-- Signed division of a non-negative word by a positive literal is the division of naturals. -/
private theorem toNat_divsi (u : ArithUnit) {x : BitVec 32} (hx : 2 * x.toNat < 2 ^ 32) (k : Nat) (hk : 0 < k) (hk' : 2 * k < 2 ^ 32) :
    (IntOp.divsi u x (BitVec.ofNat 32 k)).toNat = x.toNat / k := by
  have hkN : (BitVec.ofNat 32 k).toNat = k := by rw [BitVec.toNat_ofNat]; omega
  have hm : x.msb = false := by rw [BitVec.msb_eq_false_iff_two_mul_lt]; exact hx
  have hkm : (BitVec.ofNat 32 k).msb = false := by rw [BitVec.msb_eq_false_iff_two_mul_lt]; omega
  unfold IntOp.divsi
  rw [if_neg (IntOp.not_corner_of_pos (by rw [BitVec.toInt_eq_toNat_of_lt (by omega)]; omega)), BitVec.sdiv_eq, hm, hkm]
  show (x / BitVec.ofNat 32 k).toNat = _
  rw [BitVec.toNat_udiv, hkN]

/-- "The sign of x, (x > 0) − (x < 0), is not 1, and the remainder of x by k is not 0" is false of every non-negative x:
    a non-zero x has sign 1, and zero has remainder 0. -/
private theorem floor_bit (u : ArithUnit) {x : BitVec 32} (hx : 2 * x.toNat < 2 ^ 32) (k : Nat) (hk : 0 < k) (hk' : 2 * k < 2 ^ 32) :
    IntOp.andi (IntOp.cmpi .ne (IntOp.subi ((IntOp.cmpi .sgt x 0#32).setWidth 32) ((IntOp.cmpi .slt x 0#32).setWidth 32)) 1#32)
      (IntOp.cmpi .ne (IntOp.remsi u x (BitVec.ofNat 32 k)) 0#32) = 0#1 := by
  apply eq_zero_of_ne_one
  rw [IntOp.andi_eq_one, IntOp.cmpi_ne, IntOp.cmpi_ne]
  rintro ⟨h1, h2⟩
  have hx0 : x.toNat ≠ 0 := by
    intro h0
    apply h2
    rw [IntOp.remsi_eq_zero_iff u hx k hk hk', h0]
    exact dvd_zero k
  have hpos : (0#32 : BitVec 32).toInt < x.toInt := by
    rw [BitVec.toInt_eq_toNat_of_lt hx]; simp; omega
  have hs : IntOp.cmpi .sgt x 0#32 = 1#1 := IntOp.cmpi_sgt.mpr hpos
  have hl : IntOp.cmpi .slt x 0#32 = 0#1 := by
    apply eq_zero_of_ne_one
    rw [IntOp.cmpi_slt]; omega
  apply h1
  rw [hs, hl]; decide

/-- The division rounding toward minus infinity, of the word of a natural n by a positive literal k: the word of n / k. -/
private theorem floordiv (u : ArithUnit) (n : Nat) (hn : 2 * n < 2 ^ 32) (k : Nat) (hk : 0 < k) (hk' : 2 * k < 2 ^ 32) :
    Scalar.select (IntOp.andi (IntOp.cmpi .ne (IntOp.subi ((IntOp.cmpi .sgt (BitVec.ofNat 32 n) 0#32).setWidth 32)
        ((IntOp.cmpi .slt (BitVec.ofNat 32 n) 0#32).setWidth 32)) 1#32)
      (IntOp.cmpi .ne (IntOp.remsi u (BitVec.ofNat 32 n) (BitVec.ofNat 32 k)) 0#32))
      (IntOp.subi (IntOp.divsi u (BitVec.ofNat 32 n) (BitVec.ofNat 32 k)) 1#32) (IntOp.divsi u (BitVec.ofNat 32 n) (BitVec.ofNat 32 k))
      = BitVec.ofNat 32 (n / k) := by
  have hN : (BitVec.ofNat 32 n).toNat = n := by rw [BitVec.toNat_ofNat]; omega
  rw [floor_bit u (by rw [hN]; exact hn) k hk hk', select_zero]
  apply BitVec.eq_of_toNat_eq
  rw [toNat_divsi u (by rw [hN]; exact hn) k hk hk', hN, BitVec.toNat_ofNat]
  have hq : n / k ≤ n := Nat.div_le_self n k
  generalize n / k = q at hq ⊢
  omega

/-- A one-bit word, zero-extended and read as a signed integer, is 1 or 0 as an extended real. -/
private theorem sitofp_bit (p : Prop) [Decidable p] (b : BitVec 1) (hb : b = 1#1 ↔ p) :
    FloatOps.sitofp (F := Ideal) .f32 (b.setWidth 32) = if p then 1 else 0 := by
  show (((b.setWidth 32).toInt : ℝ) : EReal) = _
  by_cases hp : p
  · rw [if_pos hp, hb.mpr hp, show ((1#1 : BitVec 1).setWidth 32).toInt = 1 from by decide]; simp
  · have h0 : b = 0#1 := eq_zero_of_ne_one (fun h => hp (hb.mp h))
    rw [if_neg hp, h0, show ((0#1 : BitVec 1).setWidth 32).toInt = 0 from by decide]; simp

/-- Two naturals below 2³² have the same word exactly when they are equal. -/
private theorem ofNat_inj32 {a b : Nat} (ha : a < 2 ^ 32) (hb : b < 2 ^ 32) : BitVec.ofNat 32 a = BitVec.ofNat 32 b ↔ a = b := by
  rw [← BitVec.toNat_inj, BitVec.toNat_ofNat, BitVec.toNat_ofNat, Nat.mod_eq_of_lt ha, Nat.mod_eq_of_lt hb]

/-! ## The column's patch: w / 8, never lowered -/

/-- The column counter of an 8 × 128 block at (h, w) is the word of w. -/
private theorem iota_col (h : Fin 8) (w : Fin 128) :
    iota .tc S8x128 32 [1] iota_S8x128_d1_w32 (ix2 h w) = BitVec.ofNat 32 w.val :=
  iota_single_apply .tc S8x128 32 1 iota_S8x128_d1_w32 (ix2 h w)

private theorem toNat_col (w : Fin 128) : (BitVec.ofNat 32 w.val).toNat = w.val := by
  rw [BitVec.toNat_ofNat]; have := w.isLt; omega

/-- The quotient toward zero of the column by 8 is the word of w / 8. -/
private theorem pay7_apply (h : Fin 8) (w : Fin 128) : k0_pay7 (ix2 h w) = BitVec.ofNat 32 (w.val / 8) := by
  unfold k0_pay7
  simp only [divsi, broadcast_apply]
  rw [iota_col]
  apply BitVec.eq_of_toNat_eq
  have hw := w.isLt
  rw [toNat_divsi .vector (by rw [toNat_col]; omega) 8 (by omega) (by omega), toNat_col, BitVec.toNat_ofNat]
  omega

/-- The quotient is lowered at no column: columns are non-negative. -/
private theorem pay8_apply (h : Fin 8) (w : Fin 128) : k0_pay8 (ix2 h w) = 0#1 := by
  unfold k0_pay8
  simp only [andi, cmpi, subi, remsi, extui, broadcast_apply]
  rw [iota_col]
  have hw := w.isLt
  exact floor_bit .vector (by rw [toNat_col]; omega) 8 (by omega) (by omega)

/-! ## The changes of shape around the pixel's code, read at an index

Each equates the two row-major positions: (f · 8 + h) · 128 + w = f · 1024 + (h · 128 + w), and a unit axis contributes
nothing. -/

section Layout
variable {α : Type}

/-- A 3 × 8 × 128 array seen as 3 × 1024 reads, at pixel h · 128 + w of frame f, its entry (f, h, w). -/
private theorem cast_rows_flat (x : S3x8x128.Idx → α) (hc : S3x8x128.ShapeCasts S3x1024) (f : Fin 3) (h : Fin 8) (w : Fin 128) :
    shapeCast S3x1024 x hc (ix2 f (Cert.Spec.hw h w)) = x (ix3 f h w) :=
  shapeCast_apply x hc _ _ (by
    rw [Shape.rowMajor_val_three, Shape.rowMajor_val_two]
    show (f.val * 8 + h.val) * 128 + w.val = f.val * 1024 + (h.val * 128 + w.val)
    omega)

/-- A trailing unit axis added to a 3 × 1024 array. -/
private theorem cast_add_unit (x : S3x1024.Idx → α) (hc : S3x1024.ShapeCasts S3x1024x1) (f : Fin 3) (p : Fin 1024) :
    shapeCast S3x1024x1 x hc (ix3 f p (0 : Fin 1)) = x (ix2 f p) :=
  shapeCast_apply x hc _ _ (by
    rw [Shape.rowMajor_val_three, Shape.rowMajor_val_two]
    show f.val * 1024 + p.val = (f.val * 1024 + p.val) * 1 + 0
    omega)

/-- A column copied along the 304 codes. -/
private theorem bcast_codes (x : S3x1024x1.Idx → α) (hb : S3x1024x1.Broadcasts S3x1024x304) (f : Fin 3) (p : Fin 1024) (e : Fin 304) :
    broadcastTo S3x1024x304 x hb (ix3 f p e) = x (ix3 f p (0 : Fin 1)) :=
  broadcastTo_apply x hb _ _ (fun a => match a with | ⟨0, _⟩ => rfl | ⟨1, _⟩ => rfl | ⟨2, _⟩ => rfl)

/-- A row of 304 codes copied over frames and pixels. -/
private theorem bcast_pixels (x : S1x1x304.Idx → α) (hb : S1x1x304.Broadcasts S3x1024x304) (f : Fin 3) (p : Fin 1024) (e : Fin 304) :
    broadcastTo S3x1024x304 x hb (ix3 f p e) = x (ix3 (0 : Fin 1) (0 : Fin 1) e) :=
  broadcastTo_apply x hb _ _ (fun a => match a with | ⟨0, _⟩ => rfl | ⟨1, _⟩ => rfl | ⟨2, _⟩ => rfl)

/-- One 8 × 128 block copied over the three frames. -/
private theorem bcast_frames (x : S1x8x128.Idx → α) (hb : S1x8x128.Broadcasts S3x8x128) (f : Fin 3) (h : Fin 8) (w : Fin 128) :
    broadcastTo S3x8x128 x hb (ix3 f h w) = x (ix3 (0 : Fin 1) h w) :=
  broadcastTo_apply x hb _ _ (fun a => match a with | ⟨0, _⟩ => rfl | ⟨1, _⟩ => rfl | ⟨2, _⟩ => rfl)

/-- A leading unit axis added to an 8 × 128 block. -/
private theorem cast_lead_unit (x : S8x128.Idx → α) (hc : S8x128.ShapeCasts S1x8x128) (h : Fin 8) (w : Fin 128) :
    shapeCast S1x8x128 x hc (ix3 (0 : Fin 1) h w) = x (ix2 h w) :=
  shapeCast_apply x hc _ _ (by
    rw [Shape.rowMajor_val_three, Shape.rowMajor_val_two]
    show h.val * 128 + w.val = (0 * 8 + h.val) * 128 + w.val
    omega)

/-- The label block with its two unit axes dropped. -/
private theorem cast_labels (x : S3x1x1x8x128.Idx → α) (hc : S3x1x1x8x128.ShapeCasts S3x8x128) (f : Fin 3) (h : Fin 8) (w : Fin 128) :
    shapeCast S3x8x128 x hc (ix3 f h w) = x (ix5 f (0 : Fin 1) (0 : Fin 1) h w) :=
  shapeCast_apply x hc _ _ (by
    rw [Shape.rowMajor_val_five, Shape.rowMajor_val_three]
    show (((f.val * 1 + 0) * 1 + 0) * 8 + h.val) * 128 + w.val = (f.val * 8 + h.val) * 128 + w.val
    omega)

end Layout

/-- The counter along the 304 codes at e is the word of e. -/
private theorem iota_codes (e : Fin 304) :
    iota .tc S1x1x304 32 [2] iota_S1x1x304_d2_w32 (ix3 (0 : Fin 1) (0 : Fin 1) e) = BitVec.ofNat 32 e.val :=
  iota_single_apply .tc S1x1x304 32 2 iota_S1x1x304_d2_w32 (ix3 (0 : Fin 1) (0 : Fin 1) e)

/-! ## The pixel-by-code matrix -/

/-- Pixel (h, w) of frame f has code (w / 8) · 19 + label, below 304, so the 32-bit sum and product do not wrap; with
    label and k below 19, (w / 8) · 19 + label = cb · 19 + k exactly when w / 8 = cb and label = k. -/
theorem oh_apply (x1 : Vec Ideal S3x1x1x8x128 .i32) (hlab : ∀ i, (x1 i).toNat < 19)
    (f : Fin 3) (h : Fin 8) (w : Fin 128) (cb : Fin 16) (k : Fin 19) :
    k0_pay9 (F := Ideal) (k0_pay5 x1) k0_pay7 k0_pay8 (ix3 f (Cert.Spec.hw h w) (Cert.Spec.ek cb k))
      = if w.val / 8 = cb.val then Cert.Spec.oh (lbOf x1) f h w k else 0 := by
  unfold k0_pay9
  simp only [sitofp_apply, extui_apply, cmpi]
  rw [bcast_codes, cast_add_unit, cast_rows_flat, bcast_pixels, iota_codes]
  simp only [addi]
  rw [bcast_frames]
  simp only [muli, broadcast_apply]
  rw [cast_lead_unit]
  simp only [select_apply, subi, broadcast_apply]
  rw [pay8_apply, pay7_apply, select_zero]
  unfold k0_pay5
  rw [cast_labels]
  have hL := hlab (ix5 f (0 : Fin 1) (0 : Fin 1) h w)
  have hoh : Cert.Spec.oh (lbOf x1) f h w k
      = if x1 (ix5 f (0 : Fin 1) (0 : Fin 1) h w) = BitVec.ofNat 32 k.val then 1 else 0 := rfl
  rw [hoh]
  generalize x1 (ix5 f (0 : Fin 1) (0 : Fin 1) h w) = L at hL ⊢
  rw [← ite_and]
  refine sitofp_bit _ _ ?_
  have hw := w.isLt
  have hc := cb.isLt
  have hk := k.isLt
  rw [IntOp.cmpi_eq, ← BitVec.toNat_inj, ← BitVec.toNat_inj]
  simp only [IntOp.addi, IntOp.muli, BitVec.toNat_add, BitVec.toNat_mul, BitVec.toNat_ofNat, Cert.Spec.ek]
  have hq : w.val / 8 < 16 := by omega
  generalize w.val / 8 = q at hq ⊢
  have e1 : q % 2 ^ 32 = q := Nat.mod_eq_of_lt (by omega)
  have e2 : 19 % 2 ^ 32 = 19 := by norm_num
  have e3 : q * 19 % 2 ^ 32 = q * 19 := Nat.mod_eq_of_lt (by omega)
  have e4 : (q * 19 + L.toNat) % 2 ^ 32 = q * 19 + L.toNat := Nat.mod_eq_of_lt (by omega)
  have e5 : (cb.val * 19 + k.val) % 2 ^ 32 = cb.val * 19 + k.val := Nat.mod_eq_of_lt (by omega)
  have e6 : k.val % 2 ^ 32 = k.val := Nat.mod_eq_of_lt (by omega)
  rw [e1, e2, e3, e4, e5, e6]
  omega

/-! ## The code-by-patch matrix -/

/-- The counter along the 304 codes of a 304 × 16 array at (e, cb) is the word of e, the one along the patches that of cb. -/
private theorem iota_code (e : Fin 304) (cb : Fin 16) :
    iota .tc S304x16 32 [0] iota_S304x16_d0_w32 (ix2 e cb) = BitVec.ofNat 32 e.val :=
  iota_single_apply .tc S304x16 32 0 iota_S304x16_d0_w32 (ix2 e cb)
private theorem iota_patch (e : Fin 304) (cb : Fin 16) :
    iota .tc S304x16 32 [1] iota_S304x16_d1_w32 (ix2 e cb) = BitVec.ofNat 32 cb.val :=
  iota_single_apply .tc S304x16 32 1 iota_S304x16_d1_w32 (ix2 e cb)

/-- Code e belongs to patch e / 19: the division of the non-negative code by 19 is never lowered, and the change of
    format after the conversion is the identity on extended reals. -/
theorem bmat_apply (e : Fin 304) (cb : Fin 16) :
    k0_pay14 (F := Ideal) (ix2 e cb) = if e.val / 19 = cb.val then 1 else 0 := by
  unfold k0_pay14
  simp only [truncf_apply, sitofp_apply, extui_apply, select_apply, andi, cmpi, subi, remsi, divsi, extui, broadcast_apply]
  rw [iota_code, iota_patch]
  have he := e.isLt
  have hc := cb.isLt
  rw [show Scalar.subi (Scalar.extui (Scalar.cmpi .sgt 19#32 0#32)) (Scalar.extui (Scalar.cmpi .slt 19#32 0#32)) = 1#32 from by decide,
    floordiv .vector e.val (by omega) 19 (by omega) (by omega)]
  refine sitofp_bit _ _ ?_
  rw [IntOp.cmpi_eq, ofNat_inj32 (by omega) (by omega)]

end Cert.KernelIdeal.KV

end
-- ==== Proof.LibFinSplit.lean ====
/-
  Sums over `Fin (a * b)` by quotient and remainder.

  A position `i < a * b` is `q * b + r` with `q < a`, `r < b` in exactly one way; so a sum over the positions is the
  double sum over `q` and `r`, and the part of it whose quotient `i / b` is a given `q` is the sum over `r` alone.
-/
import Mathlib.Algebra.BigOperators.Fin
import Mathlib.Algebra.BigOperators.Group.Finset.Basic
import Mathlib.Logic.Equiv.Fin.Basic

namespace Cert.LibFinSplit

open scoped BigOperators

/-- The position `q * b + r`. -/
def pos {a b : ℕ} (q : Fin a) (r : Fin b) : Fin (a * b) :=
  ⟨q.val * b + r.val, by
    have hr := r.isLt
    have h1 : q.val + 1 ≤ a := q.isLt
    have h2 : (q.val + 1) * b ≤ a * b := Nat.mul_le_mul_right b h1
    have h3 : (q.val + 1) * b = q.val * b + b := by rw [Nat.add_mul, Nat.one_mul]
    omega⟩

@[simp] theorem pos_val {a b : ℕ} (q : Fin a) (r : Fin b) : (pos q r).val = q.val * b + r.val := rfl

theorem pos_div {a b : ℕ} (q : Fin a) (r : Fin b) : (pos q r).val / b = q.val := by
  have hr := r.isLt
  have hb : 0 < b := by omega
  rw [pos_val, Nat.add_comm, Nat.add_mul_div_right _ _ hb, Nat.div_eq_of_lt hr, Nat.zero_add]

theorem pos_mod {a b : ℕ} (q : Fin a) (r : Fin b) : (pos q r).val % b = r.val := by
  have hr := r.isLt
  rw [pos_val, Nat.add_comm, Nat.add_mul_mod_self_right, Nat.mod_eq_of_lt hr]

/-- Quotient and remainder, as an equivalence. -/
def split (a b : ℕ) : Fin a × Fin b ≃ Fin (a * b) where
  toFun x := pos x.1 x.2
  invFun i := (⟨i.val / b, by
      have hi := i.isLt
      rcases Nat.eq_zero_or_pos b with hb | hb
      · subst hb; simp at hi
      · exact Nat.div_lt_of_lt_mul (lt_of_lt_of_eq hi (Nat.mul_comm a b))⟩,
    ⟨i.val % b, by
      have hi := i.isLt
      rcases Nat.eq_zero_or_pos b with hb | hb
      · subst hb; simp at hi
      · exact Nat.mod_lt _ hb⟩)
  left_inv x := by
    obtain ⟨q, r⟩ := x
    apply Prod.ext
    · exact Fin.ext (pos_div q r)
    · exact Fin.ext (pos_mod q r)
  right_inv i := by
    apply Fin.ext
    show i.val / b * b + i.val % b = i.val
    rw [Nat.mul_comm]; exact Nat.div_add_mod i.val b

/-- A sum over the positions is the double sum over quotient and remainder. -/
theorem sum_split {M : Type*} [AddCommMonoid M] (a b : ℕ) (f : Fin (a * b) → M) :
    ∑ i : Fin (a * b), f i = ∑ q : Fin a, ∑ r : Fin b, f (pos q r) := by
  rw [← Equiv.sum_comp (split a b) f, Fintype.sum_prod_type]
  rfl

/-- The part of a sum whose quotient is `q`. -/
theorem sum_div_eq {M : Type*} [AddCommMonoid M] (a b : ℕ) (f : Fin (a * b) → M) (q : Fin a) :
    ∑ i : Fin (a * b), (if i.val / b = q.val then f i else 0) = ∑ r : Fin b, f (pos q r) := by
  rw [sum_split]
  rw [Finset.sum_eq_single q]
  · refine Finset.sum_congr rfl fun r _ => ?_
    rw [if_pos (pos_div q r)]
  · intro q' _ hne
    refine Finset.sum_eq_zero fun r _ => ?_
    rw [if_neg]
    rw [pos_div]
    exact fun h => hne (Fin.ext h)
  · intro h; exact absurd (Finset.mem_univ q) h

end Cert.LibFinSplit
-- ==== Proof.KVal.lean ====
/-
  The kernel's per-(patch, label) quantities of one row-block, read at an index: the label counts per frame, and the
  channel mean of the absolute second difference in time of the label's average normalised feature. The sums over the
  1024 pixels of the row-block against the 0/1 matrix are the sums over the 64 pixels of the patch.
-/
import proofs.«116369_j89309549953719_1_alg».proof.Proof.KInt
import proofs.«116369_j89309549953719_1_alg».proof.Proof.LibFinSplit

noncomputable section

open Idealize.ShloMosaic Idealize.ShloMosaic.TcCoe Idealize.SL.Sem Idealize.ShloMosaic.ValueIdx

namespace Cert.KernelIdeal.KV

open Cert.KernelIdeal Cert.KernelIdeal.Gen

/-! ## Sums over the pixels of a row-block and over the columns of a patch -/

/-- The sum over the pixel axis of a [3, 1024, 304] array, read at (frame, code). -/
private theorem sumPix (src : FVec Ideal S3x1024x304 .f32) (f : Fin 3) (e : Fin 304) :
    multiReduction .add [1] S3x304 src 0x00000000#32 reduces_S3x1024x304_S3x304 (.inl rfl) rfl (ix2 f e)
      = ∑ p : Fin 1024, src (ix3 f p e) := by
  refine (Ideal.multiReduction_add_single src 0x00000000#32 reduces_S3x1024x304_S3x304 (.inl rfl) rfl (ix2 f e)).trans ?_
  refine Finset.sum_congr rfl fun p _ => congrArg src ?_
  funext a
  match a with
  | ⟨0, _⟩ => rfl
  | ⟨1, _⟩ => rfl
  | ⟨2, _⟩ => rfl

/-- A sum over the 1024 pixels of a row-block is the sum over its rows and columns. -/
private theorem sum_hw {M : Type*} [AddCommMonoid M] (g : Fin 1024 → M) :
    ∑ p : Fin 1024, g p = ∑ h : Fin 8, ∑ w : Fin 128, g (Cert.Spec.hw h w) :=
  Cert.LibFinSplit.sum_split 8 128 (fun p : Fin (8 * 128) => g p)

/-- Of a sum over the 128 columns, the part in patch cb is the sum over the patch's 8 columns. -/
private theorem sum_patch {M : Type*} [AddCommMonoid M] (g : Fin 128 → M) (cb : Fin 16) :
    ∑ w : Fin 128, (if w.val / 8 = cb.val then g w else 0) = ∑ r : Fin 8, g (Cert.Spec.at8 cb r) :=
  Cert.LibFinSplit.sum_div_eq 16 8 (fun w : Fin (16 * 8) => g w) cb

/-- The count of frame f at (patch cb, label k): the 0/1 matrix summed over the 1024 pixels (h, w) is, row by row, the
    sum over the columns of patch cb, since the matrix vanishes at every column outside the patch. -/
theorem cnt_apply (x1 : Vec Ideal S3x1x1x8x128 .i32) (hlab : ∀ i, (x1 i).toNat < 19) (f : Fin 3) (cb : Fin 16) (k : Fin 19) :
    cntsOf (F := Ideal) x1 (ix2 f (Cert.Spec.ek cb k)) = Cert.Spec.cnt (lbOf x1) f cb k := by
  unfold cntsOf k0_pay10
  refine (sumPix _ f _).trans ?_
  rw [sum_hw]
  unfold Cert.Spec.cnt
  refine Finset.sum_congr rfl fun h _ => ?_
  refine Eq.trans ?_ (sum_patch (fun w => Cert.Spec.oh (lbOf x1) f h w k) cb)
  exact Finset.sum_congr rfl fun w _ => oh_apply x1 hlab f h w cb k

/-! ## The batched product over the pixels

Output index (frame, channel, code) and pixel p: the left operand is read at (frame, channel, p), the right at
(frame, p, code). -/

private theorem lhs_mm_0 (i : S3x256x304.Idx) (q : dot_S3x256x1024_S3x1024x304_S3x256x304_2_1_1_2_0_0.contr.Idx) :
    (dot_S3x256x1024_S3x1024x304_S3x256x304_2_1_1_2_0_0.lhsIdx i q 0).val = (i 0).val := by
  unfold DotDims.lhsIdx
  rw [dif_pos (show (0 : Fin S3x256x1024.rank) ∈ dot_S3x256x1024_S3x1024x304_S3x256x304_2_1_1_2_0_0.lhsBatch by decide)]
  rfl
private theorem lhs_mm_1 (i : S3x256x304.Idx) (q : dot_S3x256x1024_S3x1024x304_S3x256x304_2_1_1_2_0_0.contr.Idx) :
    (dot_S3x256x1024_S3x1024x304_S3x256x304_2_1_1_2_0_0.lhsIdx i q 1).val = (i 1).val := by
  unfold DotDims.lhsIdx
  rw [dif_neg (show ¬(1 : Fin S3x256x1024.rank) ∈ dot_S3x256x1024_S3x1024x304_S3x256x304_2_1_1_2_0_0.lhsBatch by decide), dif_pos (show (1 : Fin S3x256x1024.rank) ∈ dot_S3x256x1024_S3x1024x304_S3x256x304_2_1_1_2_0_0.lhsNonContracting by decide)]
  rfl
private theorem lhs_mm_2 (i : S3x256x304.Idx) (q : dot_S3x256x1024_S3x1024x304_S3x256x304_2_1_1_2_0_0.contr.Idx) :
    (dot_S3x256x1024_S3x1024x304_S3x256x304_2_1_1_2_0_0.lhsIdx i q 2).val = (q ⟨0, by decide⟩).val :=
  dot_S3x256x1024_S3x1024x304_S3x256x304_2_1_1_2_0_0.lhsIdx_val_of_single rfl i q
private theorem rhs_mm_0 (i : S3x256x304.Idx) (q : dot_S3x256x1024_S3x1024x304_S3x256x304_2_1_1_2_0_0.contr.Idx) :
    (dot_S3x256x1024_S3x1024x304_S3x256x304_2_1_1_2_0_0.rhsIdx i q 0).val = (i 0).val := by
  unfold DotDims.rhsIdx
  rw [dif_pos (show (0 : Fin S3x1024x304.rank) ∈ dot_S3x256x1024_S3x1024x304_S3x256x304_2_1_1_2_0_0.rhsBatch by decide)]
  rfl
private theorem rhs_mm_1 (i : S3x256x304.Idx) (q : dot_S3x256x1024_S3x1024x304_S3x256x304_2_1_1_2_0_0.contr.Idx) :
    (dot_S3x256x1024_S3x1024x304_S3x256x304_2_1_1_2_0_0.rhsIdx i q 1).val = (q ⟨0, by decide⟩).val :=
  dot_S3x256x1024_S3x1024x304_S3x256x304_2_1_1_2_0_0.rhsIdx_val_of_single rfl i q
private theorem rhs_mm_2 (i : S3x256x304.Idx) (q : dot_S3x256x1024_S3x1024x304_S3x256x304_2_1_1_2_0_0.contr.Idx) :
    (dot_S3x256x1024_S3x1024x304_S3x256x304_2_1_1_2_0_0.rhsIdx i q 2).val = (i 2).val := by
  unfold DotDims.rhsIdx
  rw [dif_neg (show ¬(2 : Fin S3x1024x304.rank) ∈ dot_S3x256x1024_S3x1024x304_S3x256x304_2_1_1_2_0_0.rhsBatch by decide), dif_pos (show (2 : Fin S3x1024x304.rank) ∈ dot_S3x256x1024_S3x1024x304_S3x256x304_2_1_1_2_0_0.rhsNonContracting by decide)]
  rfl

/-- The batched product into a zero accumulator, read at (frame, channel, code): the sum over the 1024 pixels. -/
private theorem mm_apply (L : FVec Ideal S3x256x1024 .bf16) (R : FVec Ideal S3x1024x304 .bf16) (f : Fin 3) (c : Fin 256) (e : Fin 304) :
    matmul dot_S3x256x1024_S3x1024x304_S3x256x304_2_1_1_2_0_0 none L R (constant (F := Ideal) S3x256x304 .f32 0x00000000#32) (ix3 f c e)
      = ∑ p : Fin 1024, L (ix3 f c p) * R (ix3 f p e) := by
  simp only [matmul]
  rw [Ideal.matmul_constant_zero_apply, ← Equiv.sum_comp (contrEquiv1 dot_S3x256x1024_S3x1024x304_S3x256x304_2_1_1_2_0_0 1024 rfl rfl).symm]
  refine Finset.sum_congr rfl fun p _ => ?_
  have hk := contrEquiv1_symm_val dot_S3x256x1024_S3x1024x304_S3x256x304_2_1_1_2_0_0 1024 rfl rfl p
  have el : dot_S3x256x1024_S3x1024x304_S3x256x304_2_1_1_2_0_0.lhsIdx (ix3 f c e) ((contrEquiv1 dot_S3x256x1024_S3x1024x304_S3x256x304_2_1_1_2_0_0 1024 rfl rfl).symm p) = ix3 f c p := funext fun a => Fin.ext (by
    match a with
    | ⟨0, _⟩ => exact lhs_mm_0 _ _
    | ⟨1, _⟩ => exact lhs_mm_1 _ _
    | ⟨2, _⟩ => exact (lhs_mm_2 _ _).trans hk)
  have er : dot_S3x256x1024_S3x1024x304_S3x256x304_2_1_1_2_0_0.rhsIdx (ix3 f c e) ((contrEquiv1 dot_S3x256x1024_S3x1024x304_S3x256x304_2_1_1_2_0_0 1024 rfl rfl).symm p) = ix3 f p e := funext fun a => Fin.ext (by
    match a with
    | ⟨0, _⟩ => exact rhs_mm_0 _ _
    | ⟨1, _⟩ => exact (rhs_mm_1 _ _).trans hk
    | ⟨2, _⟩ => exact rhs_mm_2 _ _)
  rw [el, er]

/-! ## The normalised features -/

/-- The block with its unit sample axis dropped, read at (frame, channel, row, column). -/
private theorem castPx (x0 : Vec Ideal S3x1x256x8x128 .f32) (f : Fin 3) (c : Fin 256) (h : Fin 8) (w : Fin 128) :
    shapeCast S3x256x8x128 x0 shapeCasts_S3x1x256x8x128_S3x256x8x128 (ix4 f c h w) = x0 (ix5 f (0 : Fin 1) c h w) :=
  shapeCast_apply x0 _ _ _ (by
    rw [Shape.rowMajor_val_five, Shape.rowMajor_val_four]
    show (((f.val * 1 + 0) * 256 + c.val) * 8 + h.val) * 128 + w.val = ((f.val * 256 + c.val) * 8 + h.val) * 128 + w.val
    omega)

/-- The sum over the channel axis of a [3, 256, 8, 128] array, read at (frame, row, column). -/
private theorem sumChan (src : FVec Ideal S3x256x8x128 .f32) (f : Fin 3) (h : Fin 8) (w : Fin 128) :
    multiReduction .add [1] S3x8x128 src 0x00000000#32 reduces_S3x256x8x128_S3x8x128 (.inl rfl) rfl (ix3 f h w)
      = ∑ c : Fin 256, src (ix4 f c h w) := by
  refine (Ideal.multiReduction_add_single src 0x00000000#32 reduces_S3x256x8x128_S3x8x128 (.inl rfl) rfl (ix3 f h w)).trans ?_
  refine Finset.sum_congr rfl fun c _ => congrArg src ?_
  funext a
  match a with
  | ⟨0, _⟩ => rfl
  | ⟨1, _⟩ => rfl
  | ⟨2, _⟩ => rfl
  | ⟨3, _⟩ => rfl

/-- The norms with a unit channel axis put in, read at (frame, 0, row, column). -/
private theorem castNrm (v : FVec Ideal S3x8x128 .f32) (f : Fin 3) (u : Fin 1) (h : Fin 8) (w : Fin 128) :
    shapeCast S3x1x8x128 v shapeCasts_S3x8x128_S3x1x8x128 (ix4 f u h w) = v (ix3 f h w) :=
  shapeCast_apply v _ _ _ (by
    have hu : u.val = 0 := by omega
    rw [Shape.rowMajor_val_three, Shape.rowMajor_val_four]
    show (f.val * 8 + h.val) * 128 + w.val = ((f.val * 1 + u.val) * 8 + h.val) * 128 + w.val
    rw [hu]; omega)

/-- The norms spread over the 256 channels, read at (frame, channel, row, column). -/
private theorem bcastNrm (v : FVec Ideal S3x1x8x128 .f32) (f : Fin 3) (c : Fin 256) (h : Fin 8) (w : Fin 128) :
    broadcastTo S3x256x8x128 v broadcasts_S3x1x8x128_S3x256x8x128 (ix4 f c h w) = v (ix4 f (0 : Fin 1) h w) :=
  broadcastTo_apply v _ _ _ fun a => by
    match a with
    | ⟨0, _⟩ => rfl
    | ⟨1, _⟩ => rfl
    | ⟨2, _⟩ => rfl
    | ⟨3, _⟩ => rfl

/-- The normalised features, read at (frame, channel, row, column). -/
private theorem pay6_apply (x0 : Vec Ideal S3x1x256x8x128 .f32) (f : Fin 3) (c : Fin 256) (h : Fin 8) (w : Fin 128) :
    k0_pay6 (F := Ideal) x0 (ix4 f c h w) = Cert.Spec.xn (pxOf x0) f c h w := by
  unfold k0_pay6
  dsimp only
  rw [divf_apply, bcastNrm, castNrm, maximumf_apply, castPx]
  show Ideal.div _ (max (Ideal.sqrt (multiReduction (F := Ideal) .add [1] S3x8x128 _ 0x00000000#32 reduces_S3x256x8x128_S3x8x128 (.inl rfl) rfl (ix3 f h w))) Cert.Spec.eps) = _
  rw [sumChan]
  unfold Cert.Spec.xn Cert.Spec.nrm pxOf
  refine congrArg (fun t => Ideal.div _ (max (Ideal.sqrt t) _)) (Finset.sum_congr rfl fun c' _ => ?_)
  rw [mulf_apply, castPx]

/-! ## The averages, and the channel mean of their second difference in time -/

/-- The counts floored at 1 with a unit channel axis put in and spread over the channels, read at (frame, channel, code). -/
private theorem bcastCnt (v : FVec Ideal S3x304 .f32) (f : Fin 3) (c : Fin 256) (e : Fin 304) :
    broadcastTo S3x256x304 (shapeCast S3x1x304 v shapeCasts_S3x304_S3x1x304) broadcasts_S3x1x304_S3x256x304 (ix3 f c e) = v (ix2 f e) := by
  refine (broadcastTo_apply _ broadcasts_S3x1x304_S3x256x304 (ix3 f c e) (ix3 f (0 : Fin 1) e) fun a => ?_).trans ?_
  · match a with
    | ⟨0, _⟩ => rfl
    | ⟨1, _⟩ => rfl
    | ⟨2, _⟩ => rfl
  · exact shapeCast_apply v _ _ _ (by
      rw [Shape.rowMajor_val_two, Shape.rowMajor_val_three]
      show f.val * 304 + e.val = (f.val * 1 + 0) * 304 + e.val
      omega)

/-- The features with rows and columns flattened to pixels, read at (frame, channel, pixel (h, w)). -/
private theorem castFlat (v : FVec Ideal S3x256x8x128 .f32) (f : Fin 3) (c : Fin 256) (h : Fin 8) (w : Fin 128) :
    shapeCast S3x256x1024 v shapeCasts_S3x256x8x128_S3x256x1024 (ix3 f c (Cert.Spec.hw h w)) = v (ix4 f c h w) :=
  shapeCast_apply v _ _ _ (by
    rw [Shape.rowMajor_val_four, Shape.rowMajor_val_three]
    show ((f.val * 256 + c.val) * 8 + h.val) * 128 + w.val = (f.val * 256 + c.val) * 1024 + (h.val * 128 + w.val)
    omega)

/-- Per frame, channel and (patch, label): the sum of the normalised feature over the pixels carrying the label in the
    patch, divided by their number floored at 1. -/
private def avgOf (x0 : Vec Ideal S3x1x256x8x128 .f32) (x1 : Vec Ideal S3x1x1x8x128 .i32) : FVec Ideal S3x256x304 .f32 :=
  divf (matmul dot_S3x256x1024_S3x1024x304_S3x256x304_2_1_1_2_0_0 none
      (truncf .bf16 (shapeCast S3x256x1024 (k0_pay6 (F := Ideal) x0) shapeCasts_S3x256x8x128_S3x256x1024) bitsLt_bf16_f32)
      (truncf .bf16 (k0_pay9 (F := Ideal) (k0_pay5 x1) k0_pay7 k0_pay8) bitsLt_bf16_f32)
      (constant (F := Ideal) S3x256x304 .f32 0x00000000#32))
    (broadcastTo S3x256x304
      (shapeCast S3x1x304 (maximumf (k0_pay10 (F := Ideal) (k0_pay5 x1) k0_pay7 k0_pay8) (broadcast S3x304 (Scalar.ofBits (F := Ideal) .f32 0x3F800000#32)))
        shapeCasts_S3x304_S3x1x304) broadcasts_S3x1x304_S3x256x304)

/-- The second difference in time of a [3, 256, 304] array's three frames, its absolute value summed over the channels
    and divided by 256. -/
private def tailOf (v : FVec Ideal S3x256x304 .f32) : FVec Ideal S304 .f32 :=
  divf (multiReduction .add [0] S304
      (absf (addf (subf (shapeCast S256x304 (extractStridedSlice S1x256x304 ![0, 0, 0] v slices_S3x256x304_o0_0_0_S1x256x304) shapeCasts_S1x256x304_S256x304)
          (mulf (broadcast S256x304 (Scalar.ofBits (F := Ideal) .f32 0x40000000#32))
            (shapeCast S256x304 (extractStridedSlice S1x256x304 ![1, 0, 0] v slices_S3x256x304_o1_0_0_S1x256x304) shapeCasts_S1x256x304_S256x304)))
        (shapeCast S256x304 (extractStridedSlice S1x256x304 ![2, 0, 0] v slices_S3x256x304_o2_0_0_S1x256x304) shapeCasts_S1x256x304_S256x304)))
      0x00000000#32 reduces_S256x304_S304 (.inl rfl) rfl)
    (broadcast S304 (Scalar.ofBits (F := Ideal) .f32 0x43800000#32))

/-- The kernel's value is the second stage applied to the first. -/
private theorem l1Of_eq (x0 : Vec Ideal S3x1x256x8x128 .f32) (x1 : Vec Ideal S3x1x1x8x128 .i32) :
    l1Of (F := Ideal) x0 x1 = tailOf (avgOf x0 x1) := rfl

/-- The sum over the channel axis of a [256, 304] array, read at a code. -/
private theorem sumCh0 (src : FVec Ideal S256x304 .f32) (e : Fin 304) :
    multiReduction .add [0] S304 src 0x00000000#32 reduces_S256x304_S304 (.inl rfl) rfl (ix1 e)
      = ∑ c : Fin 256, src (ix2 c e) := by
  refine (Ideal.multiReduction_add_single src 0x00000000#32 reduces_S256x304_S304 (.inl rfl) rfl (ix1 e)).trans ?_
  refine Finset.sum_congr rfl fun c _ => congrArg src ?_
  funext a
  match a with
  | ⟨0, _⟩ => rfl
  | ⟨1, _⟩ => rfl

/-- One frame sliced out of a [3, 256, 304] array and its unit axis dropped, read at (channel, code). -/
private theorem frame_apply (v : FVec Ideal S3x256x304 .f32) (o : Nat) (hs : S3x256x304.Slices ![o, 0, 0] S1x256x304)
    (fr : Fin 3) (hfr : fr.val = o) (c : Fin 256) (e : Fin 304) :
    shapeCast S256x304 (extractStridedSlice S1x256x304 ![o, 0, 0] v hs) shapeCasts_S1x256x304_S256x304 (ix2 c e) = v (ix3 fr c e) := by
  refine (shapeCast_apply _ shapeCasts_S1x256x304_S256x304 (ix2 c e) (ix3 (0 : Fin 1) c e) (by
    rw [Shape.rowMajor_val_three, Shape.rowMajor_val_two]
    show (0 * 256 + c.val) * 304 + e.val = c.val * 304 + e.val
    omega)).trans ?_
  refine extractStridedSlice_apply _ v hs (ix3 (0 : Fin 1) c e) (ix3 fr c e) fun a => ?_
  match a with
  | ⟨0, _⟩ => show fr.val = o + 0; omega
  | ⟨1, _⟩ => show c.val = 0 + c.val; omega
  | ⟨2, _⟩ => show e.val = 0 + e.val; omega

/-- The second difference in time of the three frames, its absolute value summed over the channels and divided by 256,
    read at a code. -/
private theorem tail_apply (v : FVec Ideal S3x256x304 .f32) (e : Fin 304) :
    tailOf v (ix1 e)
    = Ideal.div (∑ c : Fin 256, max (v (ix3 0 c e) - Cert.Spec.two * v (ix3 1 c e) + v (ix3 2 c e))
        (-(v (ix3 0 c e) - Cert.Spec.two * v (ix3 1 c e) + v (ix3 2 c e)))) Cert.Spec.c256 := by
  unfold tailOf
  rw [divf_apply, sumCh0]
  refine congrArg (fun t => Ideal.div t _) (Finset.sum_congr rfl fun c _ => ?_)
  show max _ (-_) = _
  rw [addf_apply, subf_apply, mulf_apply, frame_apply v 0 _ 0 rfl, frame_apply v 1 _ 1 rfl, frame_apply v 2 _ 2 rfl]
  rfl

/-- The label's average normalised feature, read at (frame, channel, (patch, label)). -/
private theorem avg_apply (x0 : Vec Ideal S3x1x256x8x128 .f32) (x1 : Vec Ideal S3x1x1x8x128 .i32) (hlab : ∀ i, (x1 i).toNat < 19)
    (f : Fin 3) (c : Fin 256) (cb : Fin 16) (k : Fin 19) :
    avgOf x0 x1 (ix3 f c (Cert.Spec.ek cb k)) = Cert.Spec.proto (pxOf x0) (lbOf x1) f c cb k := by
  unfold avgOf
  rw [divf_apply, bcastCnt, maximumf_apply, mm_apply]
  unfold Cert.Spec.proto
  refine congrArg₂ Ideal.div ?_ (congrArg₂ max (cnt_apply x1 hlab f cb k) rfl)
  rw [sum_hw]
  unfold Cert.Spec.psum
  refine Finset.sum_congr rfl fun h _ => ?_
  refine Eq.trans ?_ (sum_patch (fun w => Cert.Spec.xn (pxOf x0) f c h w * Cert.Spec.oh (lbOf x1) f h w k) cb)
  refine Finset.sum_congr rfl fun w _ => ?_
  rw [truncf_apply, truncf_apply, castFlat, pay6_apply, oh_apply x1 hlab f h w cb k]
  split
  · rfl
  · exact mul_zero _

/-- At (patch cb, label k): the three frames' averages are Spec's `proto`, their second difference its `dd`, and the sum
    over the 256 channels of its absolute value divided by 256 its `l1`. -/
theorem l1_apply (x0 : Vec Ideal S3x1x256x8x128 .f32) (x1 : Vec Ideal S3x1x1x8x128 .i32) (hlab : ∀ i, (x1 i).toNat < 19)
    (cb : Fin 16) (k : Fin 19) :
    l1Of (F := Ideal) x0 x1 (ix1 (Cert.Spec.ek cb k)) = Cert.Spec.l1 (pxOf x0) (lbOf x1) cb k := by
  rw [l1Of_eq, tail_apply]
  unfold Cert.Spec.l1
  refine congrArg (fun t => Ideal.div t _) (Finset.sum_congr rfl fun c _ => ?_)
  unfold Cert.Spec.dd
  rw [avg_apply x0 x1 hlab 0 c cb k, avg_apply x0 x1 hlab 1 c cb k, avg_apply x0 x1 hlab 2 c cb k]

end Cert.KernelIdeal.KV

end
-- ==== Proof.KOut.lean ====
/-
  What one grid point adds to the two running blocks: to every entry of the loss block the row-block's summed patch
  loss, to every entry of the count block the number of its patches with a valid label. The sums over the 304 codes
  against the second 0/1 matrix are the sums over the 19 labels of the patch.
-/
import proofs.«116369_j89309549953719_1_alg».proof.Proof.KVal
import proofs.«116369_j89309549953719_1_alg».proof.Proof.LibFinSplit

noncomputable section

open Idealize.ShloMosaic Idealize.ShloMosaic.TcCoe Idealize.SL.Sem Idealize.ShloMosaic.ValueIdx

namespace Cert.KernelIdeal.KV

open Cert.KernelIdeal Cert.KernelIdeal.Gen

namespace PatchSum

/-! ## The product of a row of 304 codes with the 304 × 16 matrix, read at a patch -/

/-- The left operand's row coordinate is the result's row … -/
theorem mm_lhs_0 (i : S1x16.Idx) (q : dot_S1x304_S304x16_S1x16_1_0_0_1_n_n.contr.Idx) :
    (dot_S1x304_S304x16_S1x16_1_0_0_1_n_n.lhsIdx i q 0).val = (i 0).val := by
  unfold DotDims.lhsIdx
  rw [dif_neg (show ¬(0 : Fin S1x304.rank) ∈ dot_S1x304_S304x16_S1x16_1_0_0_1_n_n.lhsBatch by decide), dif_pos (show (0 : Fin S1x304.rank) ∈ dot_S1x304_S304x16_S1x16_1_0_0_1_n_n.lhsNonContracting by decide)]
  rfl
/-- … its column coordinate the contracted code … -/
theorem mm_lhs_1 (i : S1x16.Idx) (q : dot_S1x304_S304x16_S1x16_1_0_0_1_n_n.contr.Idx) :
    (dot_S1x304_S304x16_S1x16_1_0_0_1_n_n.lhsIdx i q 1).val = (q ⟨0, by decide⟩).val :=
  dot_S1x304_S304x16_S1x16_1_0_0_1_n_n.lhsIdx_val_of_single rfl i q
/-- … the right operand's row coordinate the contracted code … -/
theorem mm_rhs_0 (i : S1x16.Idx) (q : dot_S1x304_S304x16_S1x16_1_0_0_1_n_n.contr.Idx) :
    (dot_S1x304_S304x16_S1x16_1_0_0_1_n_n.rhsIdx i q 0).val = (q ⟨0, by decide⟩).val :=
  dot_S1x304_S304x16_S1x16_1_0_0_1_n_n.rhsIdx_val_of_single rfl i q
/-- … and its column coordinate the result's column. -/
theorem mm_rhs_1 (i : S1x16.Idx) (q : dot_S1x304_S304x16_S1x16_1_0_0_1_n_n.contr.Idx) :
    (dot_S1x304_S304x16_S1x16_1_0_0_1_n_n.rhsIdx i q 1).val = (i 1).val := by
  unfold DotDims.rhsIdx
  rw [dif_neg (show ¬(1 : Fin S304x16.rank) ∈ dot_S1x304_S304x16_S1x16_1_0_0_1_n_n.rhsBatch by decide), dif_pos (show (1 : Fin S304x16.rank) ∈ dot_S1x304_S304x16_S1x16_1_0_0_1_n_n.rhsNonContracting by decide)]
  rfl

/-- The product into the zero block at (r, cb): the sum over the 304 codes e of the row at e times the matrix at (e, cb). -/
theorem matmul_row_apply (lhs : FVec Ideal S1x304 .bf16) (rhs : FVec Ideal S304x16 .bf16) (r : Fin 1) (cb : Fin 16) :
    matmul dot_S1x304_S304x16_S1x16_1_0_0_1_n_n none lhs rhs (constant (F := Ideal) S1x16 .f32 0x00000000#32) (ix2 r cb)
      = ∑ e : Fin 304, lhs (ix2 r e) * rhs (ix2 e cb) := by
  simp only [matmul]
  rw [Ideal.matmul_constant_zero_apply, ← Equiv.sum_comp (contrEquiv1 dot_S1x304_S304x16_S1x16_1_0_0_1_n_n 304 rfl rfl).symm]
  refine Finset.sum_congr rfl fun k _ => ?_
  have hk := contrEquiv1_symm_val dot_S1x304_S304x16_S1x16_1_0_0_1_n_n 304 rfl rfl k
  have el : dot_S1x304_S304x16_S1x16_1_0_0_1_n_n.lhsIdx (ix2 r cb) ((contrEquiv1 dot_S1x304_S304x16_S1x16_1_0_0_1_n_n 304 rfl rfl).symm k) = ix2 r k := funext fun a => Fin.ext (by
    match a with
    | ⟨0, _⟩ => exact mm_lhs_0 _ _
    | ⟨1, _⟩ => exact (mm_lhs_1 _ _).trans hk)
  have er : dot_S1x304_S304x16_S1x16_1_0_0_1_n_n.rhsIdx (ix2 r cb) ((contrEquiv1 dot_S1x304_S304x16_S1x16_1_0_0_1_n_n 304 rfl rfl).symm k) = ix2 k cb := funext fun a => Fin.ext (by
    match a with
    | ⟨0, _⟩ => exact (mm_rhs_0 _ _).trans hk
    | ⟨1, _⟩ => exact mm_rhs_1 _ _)
  rw [el, er]

/-- A vector over the 304 codes viewed as a row reads the vector at the code. -/
theorem addrow_apply {α : Type} (v : S304.Idx → α) (h : S304.ShapeCasts S1x304) (r : Fin 1) (e : Fin 304) :
    shapeCast S1x304 v h (ix2 r e) = v (ix1 e) := by
  refine shapeCast_apply v h _ (ix1 e) ?_
  rw [Shape.rowMajor_val_two, Shape.rowMajor_val_one]
  show e.val = r.val * 304 + e.val
  have := r.isLt
  omega

/-- A sum over the 304 codes against the indicator of "the code belongs to patch cb" is the sum over the 19 labels of
    that patch: a code is patch · 19 + label in exactly one way, x · 1 = x and x · 0 = 0. -/
theorem sum_code (g : Fin 304 → EReal) (cb : Fin 16) :
    ∑ e : Fin 304, g e * (if e.val / 19 = cb.val then (1 : EReal) else 0) = ∑ k : Fin 19, g (Cert.Spec.ek cb k) := by
  calc ∑ e : Fin 304, g e * (if e.val / 19 = cb.val then (1 : EReal) else 0)
      = ∑ e : Fin (16 * 19), (if e.val / 19 = cb.val then g e else 0) := by
        refine Finset.sum_congr rfl fun e _ => ?_
        by_cases h : e.val / 19 = cb.val
        · rw [if_pos h, if_pos h, mul_one]
        · rw [if_neg h, if_neg h, mul_zero]
    _ = ∑ k : Fin 19, g (Cert.LibFinSplit.pos cb k) := Cert.LibFinSplit.sum_div_eq 16 19 g cb
    _ = ∑ k : Fin 19, g (Cert.Spec.ek cb k) := rfl

/-! ## The validity of a (patch, label) -/

/-- Row f of the counts, cut out and flattened, reads the counts at (f, e). -/
theorem row_apply {α : Type} (v : S3x304.Idx → α) (off : Fin 2 → Nat) (f : Fin 3) (hoff0 : off 0 = f.val) (hoff1 : off 1 = 0)
    (h : S3x304.Slices off S1x304) (h2 : S1x304.ShapeCasts S304) (e : Fin 304) :
    shapeCast S304 (extractStridedSlice S1x304 off v h) h2 (ix1 e) = v (ix2 f e) := by
  refine (shapeCast_apply _ h2 (ix1 e) (ix2 (0 : Fin 1) e) ?_).trans ?_
  · rw [Shape.rowMajor_val_two, Shape.rowMajor_val_one]
    show 0 * 304 + e.val = e.val
    omega
  · refine extractStridedSlice_apply off v h _ (ix2 f e) fun a => ?_
    match a with
    | ⟨0, _⟩ => show f.val = off 0 + 0; omega
    | ⟨1, _⟩ => show e.val = off 1 + e.val; omega

/-- A bit widened to a word and read as a signed integer is 1 where the bit is set, else 0. -/
theorem sitofp_bit (b : BitVec 1) :
    FloatOps.sitofp (F := Ideal) .f32 (b.setWidth 32) = if b = 1#1 then (1 : EReal) else 0 := by
  rcases BitVec.eq_zero_or_eq_one b with h | h
  · subst h
    show (((BitVec.setWidth 32 0#1).toInt : ℝ) : EReal) = _
    rw [if_neg (by decide), show (BitVec.setWidth 32 0#1).toInt = 0 by decide]
    simp
  · subst h
    show (((BitVec.setWidth 32 1#1).toInt : ℝ) : EReal) = _
    rw [if_pos rfl, show (BitVec.setWidth 32 1#1).toInt = 1 by decide]
    simp

/-- The comparison "c above the zero word" is set exactly when 0 < c. -/
theorem cmp_ogt_zero (c : EReal) :
    FloatOps.cmpf (F := Ideal) (φ := .f32) .ogt c (FloatOps.ofBits .f32 0x00000000#32) = 1#1 ↔ 0 < c := by
  show Ideal.cmp .ogt c (Ideal.ofBits .f32 0x00000000#32) = 1#1 ↔ _
  rw [Ideal.ofBits_zero_f32]
  unfold Ideal.cmp
  by_cases h : (0 : EReal) < c <;> simp [h]

/-- A select on that comparison between p and the zero word is p where 0 < n, else 0. -/
theorem sel_apply (n p : EReal) :
    Scalar.select (FloatOps.cmpf (F := Ideal) (φ := .f32) .ogt n (FloatOps.ofBits .f32 0x00000000#32)) p
      (FloatOps.ofBits (F := Ideal) .f32 0x00000000#32) = if 0 < n then p else 0 := by
  by_cases h : 0 < n
  · rw [if_pos h, (cmp_ogt_zero n).mpr h, select_one]
  · rw [if_neg h, eq_zero_of_ne_one (mt (cmp_ogt_zero n).mp h), select_zero]
    exact Ideal.ofBits_zero_f32

/-- "Present in frames 0 and 1" at code e: the conjunction of the two comparisons of the counts with zero. -/
theorem v86_apply (x1 : Vec Ideal S3x1x1x8x128 .i32) (e : Fin 304) :
    v86Of (F := Ideal) x1 (ix1 e) = IntOp.andi
      (FloatOps.cmpf (F := Ideal) (φ := .f32) .ogt (cntsOf (F := Ideal) x1 (ix2 (0 : Fin 3) e)) (FloatOps.ofBits .f32 0x00000000#32))
      (FloatOps.cmpf (F := Ideal) (φ := .f32) .ogt (cntsOf (F := Ideal) x1 (ix2 (1 : Fin 3) e)) (FloatOps.ofBits .f32 0x00000000#32)) := by
  unfold v86Of k0_pay12
  show IntOp.andi
      (FloatOps.cmpf (F := Ideal) (φ := .f32) .ogt (shapeCast S304 (extractStridedSlice S1x304 ![0, 0] (cntsOf (F := Ideal) x1) slices_S3x304_o0_0_S1x304) shapeCasts_S1x304_S304 (ix1 e)) (FloatOps.ofBits .f32 0x00000000#32))
      (FloatOps.cmpf (F := Ideal) (φ := .f32) .ogt (shapeCast S304 (extractStridedSlice S1x304 ![1, 0] (cntsOf (F := Ideal) x1) slices_S3x304_o1_0_S1x304) shapeCasts_S1x304_S304 (ix1 e)) (FloatOps.ofBits .f32 0x00000000#32)) = _
  rw [row_apply _ ![0, 0] 0 rfl rfl, row_apply _ ![1, 0] 1 rfl rfl]

/-- The validity entry at code patch · 19 + label: 1 where the label's count is positive in all three frames, else 0,
    the three conditions grouped (frame 0 and frame 1) and frame 2. -/
theorem vl_apply (x1 : Vec Ideal S3x1x1x8x128 .i32) (hlab : ∀ i, (x1 i).toNat < 19) (cb : Fin 16) (k : Fin 19) :
    k0_pay13 (F := Ideal) (cntsOf x1) (v86Of (F := Ideal) x1) (ix1 (Cert.Spec.ek cb k)) = Cert.Spec.vl (lbOf x1) cb k := by
  unfold k0_pay13
  show FloatOps.sitofp (F := Ideal) .f32 ((IntOp.andi (v86Of (F := Ideal) x1 (ix1 (Cert.Spec.ek cb k)))
      (FloatOps.cmpf (F := Ideal) (φ := .f32) .ogt (shapeCast S304 (extractStridedSlice S1x304 ![2, 0] (cntsOf (F := Ideal) x1) slices_S3x304_o2_0_S1x304) shapeCasts_S1x304_S304 (ix1 (Cert.Spec.ek cb k))) (FloatOps.ofBits .f32 0x00000000#32))).setWidth 32) = _
  rw [row_apply _ ![2, 0] 2 rfl rfl, v86_apply, sitofp_bit, cnt_apply x1 hlab, cnt_apply x1 hlab, cnt_apply x1 hlab]
  unfold Cert.Spec.vl
  simp only [IntOp.andi_eq_one, cmp_ogt_zero]

/-! ## Per patch: the number of valid labels, their summed loss, and the divisor -/

/-- The number of valid labels of patch cb: the validity row against the matrix is the sum over the patch's 19 labels. -/
theorem pay16_apply (x1 : Vec Ideal S3x1x1x8x128 .i32) (hlab : ∀ i, (x1 i).toNat < 19) (cb : Fin 16) :
    k0_pay16 (F := Ideal) (cntsOf x1) (v86Of (F := Ideal) x1) (ix2 (0 : Fin 1) cb) = Cert.Spec.nc (lbOf x1) cb := by
  unfold k0_pay16
  show matmul dot_S1x304_S304x16_S1x16_1_0_0_1_n_n none
      (truncf .bf16 (shapeCast S1x304 (k0_pay13 (F := Ideal) (cntsOf x1) (v86Of (F := Ideal) x1)) shapeCasts_S304_S1x304) bitsLt_bf16_f32)
      (k0_pay14 (F := Ideal)) (constant (F := Ideal) S1x16 .f32 0x00000000#32) (ix2 (0 : Fin 1) cb) = _
  rw [matmul_row_apply]
  simp only [truncf_apply, addrow_apply, bmat_apply]
  rw [sum_code (fun e => k0_pay13 (F := Ideal) (cntsOf x1) (v86Of (F := Ideal) x1) (ix1 e)) cb]
  unfold Cert.Spec.nc
  exact Finset.sum_congr rfl fun k _ => vl_apply x1 hlab cb k

/-- The summed loss of the valid labels of patch cb: the row of loss times validity against the matrix. -/
theorem pay15_apply (x0 : Vec Ideal S3x1x256x8x128 .f32) (x1 : Vec Ideal S3x1x1x8x128 .i32) (hlab : ∀ i, (x1 i).toNat < 19) (cb : Fin 16) :
    k0_pay15 (F := Ideal) (cntsOf x1) (l1Of x0 x1) (v86Of (F := Ideal) x1) (ix2 (0 : Fin 1) cb) = Cert.Spec.pp (pxOf x0) (lbOf x1) cb := by
  unfold k0_pay15
  show matmul dot_S1x304_S304x16_S1x16_1_0_0_1_n_n none
      (truncf .bf16 (shapeCast S1x304 (mulf (l1Of (F := Ideal) x0 x1) (k0_pay13 (F := Ideal) (cntsOf x1) (v86Of (F := Ideal) x1))) shapeCasts_S304_S1x304) bitsLt_bf16_f32)
      (k0_pay14 (F := Ideal)) (constant (F := Ideal) S1x16 .f32 0x00000000#32) (ix2 (0 : Fin 1) cb) = _
  rw [matmul_row_apply]
  simp only [truncf_apply, addrow_apply, bmat_apply, mulf_apply]
  rw [sum_code (fun e => l1Of (F := Ideal) x0 x1 (ix1 e) * k0_pay13 (F := Ideal) (cntsOf x1) (v86Of (F := Ideal) x1) (ix1 e)) cb]
  unfold Cert.Spec.pp
  exact Finset.sum_congr rfl fun k _ => by rw [vl_apply x1 hlab cb k, l1_apply x0 x1 hlab cb k]

/-- The divisor of patch cb: the number of valid labels floored at 1, times 1. -/
theorem pay17_apply (x1 : Vec Ideal S3x1x1x8x128 .i32) (hlab : ∀ i, (x1 i).toNat < 19) (cb : Fin 16) :
    k0_pay17 (F := Ideal) (cntsOf x1) (v86Of (F := Ideal) x1) (ix2 (0 : Fin 1) cb)
      = max (Cert.Spec.nc (lbOf x1) cb) Cert.Spec.one * Cert.Spec.one := by
  unfold k0_pay17
  show max (k0_pay16 (F := Ideal) (cntsOf x1) (v86Of (F := Ideal) x1) (ix2 (0 : Fin 1) cb)) (Ideal.ofBits .f32 0x3F800000#32) * Ideal.ofBits .f32 0x3F800000#32 = _
  rw [pay16_apply x1 hlab cb]

/-! ## The sum over the 16 patches, spread over the block -/

/-- A vector of one entry has one index. -/
theorem S1_apply {α : Type} (m : S1.Idx → α) (j : S1.Idx) : m j = m (ix1 (0 : Fin 1)) := by
  refine congrArg m (funext fun a => Fin.ext ?_)
  match a with
  | ⟨0, _⟩ =>
    show (j 0).val = 0
    have : (j 0).val < 1 := (j 0).isLt
    omega

/-- The row over the 16 patches summed over both of its axes, its one entry taken out and spread over the 8 × 128 block,
    reads at every (a, b) the sum over the patches. -/
theorem total_apply (v : FVec Ideal S1x16 .f32) (a : Fin 8) (b : Fin 128) :
    broadcastTo S8x128 (shapeCast S1x1 (broadcast S1x1 (extractAt ![0, 0, 0] (shapeCast S1x1x1
      (multiReduction (F := Ideal) .add [1, 2] S1 (shapeCast S1x1x16 v shapeCasts_S1x16_S1x1x16) 0x00000000#32 reduces_S1x1x16_S1 (.inl rfl) rfl)
      shapeCasts_S1_S1x1x1) inpos_S1x1x1_p0_0_0)) shapeCasts_S1x1_S1x1) broadcasts_S1x1_S8x128 (ix2 a b)
      = ∑ cb : Fin 16, v (ix2 (0 : Fin 1) cb) := by
  generalize hm : multiReduction (F := Ideal) .add [1, 2] S1 (shapeCast S1x1x16 v shapeCasts_S1x16_S1x1x16) 0x00000000#32 reduces_S1x1x16_S1 (.inl rfl) rfl = m
  refine (broadcastTo_apply _ broadcasts_S1x1_S8x128 (ix2 a b) (ix2 (0 : Fin 1) (0 : Fin 1)) fun c => ?_).trans ?_
  · match c with
    | ⟨0, _⟩ => rfl
    | ⟨1, _⟩ => rfl
  · rw [shapeCast_self]
    show m _ = _
    rw [S1_apply m, ← hm]
    refine (Ideal.multiReduction_add_total _ _ reduces_S1x1x16_S1 (fun c => by match c with | ⟨0, _⟩ => rfl) (.inl rfl) rfl (ix1 (0 : Fin 1))).trans ?_
    rw [show (∑ i : S1x1x16.Idx, shapeCast S1x1x16 v shapeCasts_S1x16_S1x1x16 i) = ∑ j : S1x16.Idx, v j from
      Equiv.sum_comp (Shape.reshapeEquiv shapeCasts_S1x16_S1x1x16) v, sum_idx2]
    exact Fin.sum_univ_one _

/-- The block with its unit axis dropped reads the block at (0, a, b) … -/
theorem dropUnit_apply {α : Type} (v : S1x8x128.Idx → α) (z : Fin 1) (a : Fin 8) (b : Fin 128) :
    shapeCast S8x128 v shapeCasts_S1x8x128_S8x128 (ix2 a b) = v (ix3 z a b) := by
  refine shapeCast_apply v shapeCasts_S1x8x128_S8x128 (ix2 a b) (ix3 z a b) ?_
  rw [Shape.rowMajor_val_two, Shape.rowMajor_val_three]
  show (z.val * 8 + a.val) * 128 + b.val = a.val * 128 + b.val
  have := z.isLt
  omega

/-- … and with the unit axis put back reads the 8 × 128 block at (a, b). -/
theorem addUnit_apply {α : Type} (v : S8x128.Idx → α) (z : Fin 1) (a : Fin 8) (b : Fin 128) :
    shapeCast S1x8x128 v shapeCasts_S8x128_S1x8x128 (ix3 z a b) = v (ix2 a b) := by
  refine shapeCast_apply v shapeCasts_S8x128_S1x8x128 (ix3 z a b) (ix2 a b) ?_
  rw [Shape.rowMajor_val_two, Shape.rowMajor_val_three]
  show a.val * 128 + b.val = (z.val * 8 + a.val) * 128 + b.val
  have := z.isLt
  omega

end PatchSum

open PatchSum

/-- The zero block is 0 at every entry. -/
theorem pay3_apply (y : S1x8x128.Idx) : k0_pay3 (F := Ideal) y = 0 := by
  unfold k0_pay3
  exact Ideal.ofBits_zero_f32

theorem pay4_apply (y : S1x8x128.Idx) : k0_pay4 (F := Ideal) y = 0 := by
  unfold k0_pay4
  exact Ideal.ofBits_zero_f32

/-- Every entry of the loss block gains the sum over the 16 patches of the patch's loss: its summed loss over its
    divisor where it has a valid label, else 0. -/
theorem lossOut_apply (x0 : Vec Ideal S3x1x256x8x128 .f32) (x1 : Vec Ideal S3x1x1x8x128 .i32) (hlab : ∀ i, (x1 i).toNat < 19)
    (prev : Vec Ideal S1x8x128 .f32) (y : S1x8x128.Idx) :
    lossOut (F := Ideal) x0 x1 prev y = prev y + Cert.Spec.blockLoss (pxOf x0) (lbOf x1) := by
  obtain ⟨z, a, b, rfl⟩ : ∃ (z : Fin 1) (a : Fin 8) (b : Fin 128), y = ix3 z a b := ⟨y 0, y 1, y 2, eq_ix3 y⟩
  unfold lossOut k0_pay1
  dsimp only
  rw [addUnit_apply, addf_apply, dropUnit_apply prev z a b]
  refine congrArg (prev (ix3 z a b) + ·) ((total_apply _ a b).trans ?_)
  unfold Cert.Spec.blockLoss
  refine Finset.sum_congr rfl fun cb _ => ?_
  rw [select_apply, cmpf_apply, divf_apply, broadcast_apply, pay15_apply x0 x1 hlab, pay16_apply x1 hlab,
    pay17_apply x1 hlab, sel_apply]
  rfl

/-- Every entry of the count block gains the number of patches with a valid label. -/
theorem countOut_apply (x1 : Vec Ideal S3x1x1x8x128 .i32) (hlab : ∀ i, (x1 i).toNat < 19)
    (prev : Vec Ideal S1x8x128 .f32) (y : S1x8x128.Idx) :
    countOut (F := Ideal) x1 prev y = prev y + Cert.Spec.blockCount (lbOf x1) := by
  obtain ⟨z, a, b, rfl⟩ : ∃ (z : Fin 1) (a : Fin 8) (b : Fin 128), y = ix3 z a b := ⟨y 0, y 1, y 2, eq_ix3 y⟩
  unfold countOut k0_pay2
  dsimp only
  rw [addUnit_apply, addf_apply, dropUnit_apply prev z a b]
  refine congrArg (prev (ix3 z a b) + ·) ((total_apply _ a b).trans ?_)
  unfold Cert.Spec.blockCount
  refine Finset.sum_congr rfl fun cb _ => ?_
  rw [sitofp_apply, extui_apply, cmpf_apply, broadcast_apply, pay16_apply x1 hlab, sitofp_bit]
  unfold Cert.Spec.ind
  simp only [cmp_ogt_zero]

end Cert.KernelIdeal.KV

end
-- ==== Proof.KTail.lean ====
/-
  The host lines after the call, read as a value: of each output array the entries (n, 0, 0) of the two samples are
  added; the loss sum is divided by the count (floored at 1) where the count is positive, else the result is 0; the
  quotient is multiplied by the constant 1.
-/
import proofs.«116369_j89309549953719_1_alg».proof.Proof.KPieces
import proofs.«116369_j89309549953719_1_alg».proof.Proof.Spec
import Idealize.ShloMosaic.Lib.StableHlo.Run
import Idealize.ShloMosaic.PureOps.Ideal.Laws

noncomputable section

open Idealize.ShloMosaic Idealize.ShloMosaic.TcCoe Idealize.SL.Sem Idealize.ShloMosaic.ValueIdx

namespace Cert.KernelIdeal.KV

open Cert.KernelIdeal Cert.KernelIdeal.Gen
open Idealize.ShloMosaic.Pipeline (Dat)

/-- A vector's index set is its coordinate range. -/
private def idxFin {n : Nat} : (⟨1, ![n]⟩ : Shape).Idx ≃ Fin n where
  toFun i := i 0
  invFun := ix1
  left_inv i := (eq_ix1 i).symm
  right_inv _ := rfl

/-- The entries (n, 0, 0) of an array added over the two samples, as the host computes it: the slice [0:2, 0:1, 0:1], its
    two entries as a vector, and the vector's sum from the initial value 0. -/
private def sumOf (A : S2x8x128.Idx → EReal) : S_.Idx → EReal :=
  Host.reduceAdd (F := Ideal) (φ := .f32)
    (fun i => shapeCast S2 (extractStridedSlice S2x1x1 ![0, 0, 0] A slices_S2x8x128_S2x1x1_0_0_0) shapeCasts_S2x1x1_S2 i)
    (constant (F := Ideal) S_ .f32 0x00000000#32) reducesTo_S2_S_d0 h_S_

/-- It is the sum over n of the entries (n, 0, 0). -/
private theorem sumOf_apply (A : S2x8x128.Idx → EReal) (j : S_.Idx) :
    sumOf A j = ∑ n : Fin 2, A (ix3 n (0 : Fin 8) (0 : Fin 128)) := by
  unfold sumOf
  simp only [Host.reduceAdd, Ideal.hostReduceAdd_def]
  rw [Ideal.hostReduceAdd_total reducesTo_S2_S_d0 (fun b => b.elim0)]
  rw [constant_apply, Ideal.ofBits_zero_f32, zero_add]
  rw [← Equiv.sum_comp (idxFin (n := 2)).symm]
  refine Finset.sum_congr rfl fun n _ => ?_
  show shapeCast S2 (extractStridedSlice S2x1x1 ![0, 0, 0] A slices_S2x8x128_S2x1x1_0_0_0) shapeCasts_S2x1x1_S2 (ix1 n) = _
  rw [shapeCast_apply _ shapeCasts_S2x1x1_S2 (ix1 n) (ix3 n (0 : Fin 1) (0 : Fin 1))
    (by rw [Shape.rowMajor_val_three, Shape.rowMajor_val_one]; show (n.val * 1 + 0) * 1 + 0 = n.val; omega)]
  exact extractStridedSlice_apply _ A slices_S2x8x128_S2x1x1_0_0_0 _ _ (fun a => by
    match a with
    | ⟨0, _⟩ => exact (Nat.zero_add _).symm
    | ⟨1, _⟩ => rfl
    | ⟨2, _⟩ => rfl)

theorem tail_value (m : (ℓ : Loc nD τ sig) → Buf (Elt Ideal) ℓ) (c : Dev nD) (A2 A3 : S2x8x128.Idx → EReal)
    (h2 : (dats m 0 c).arrAt 2 cfg0.N = A2) (h3 : (dats m 0 c).arrAt 3 cfg0.N = A3) :
    Pipeline.afterTail₀ cfgs (dats m) 0 (V0 m) [hostOps1, hostOps1_1, hostOps1_2] c main_v11
      = fun _ => (if 0 < ∑ n : Fin 2, A3 (ix3 n (0 : Fin 8) (0 : Fin 128))
          then Ideal.div (∑ n : Fin 2, A2 (ix3 n (0 : Fin 8) (0 : Fin 128)))
            (max (∑ n : Fin 2, A3 (ix3 n (0 : Fin 8) (0 : Fin 128))) Cert.Spec.one)
          else 0) * Cert.Spec.one := by
  -- after the call the two output arrays hold A2 and A3
  have e2 : Pipeline.withArrays (cfgs 0).spec c (V0 m c) (fun w => (dats m 0 c).arrAt w (cfgs 0).N) (Proc.devRef .tc main_v0_0) = A2 :=
    (Pipeline.withArrays_arr spec0 launch0.win.arr_inj c _ _ 2).trans h2
  have e3 : Pipeline.withArrays (cfgs 0).spec c (V0 m c) (fun w => (dats m 0 c).arrAt w (cfgs 0).N) (Proc.devRef .tc main_v0_1) = A3 :=
    (Pipeline.withArrays_arr spec0 launch0.win.arr_inj c _ _ 3).trans h3
  -- the host lines compose to: (count sum > 0 ? loss sum / max(count sum, 1) : 0) · 1
  unfold Pipeline.afterTail₀
  simp only [hostOps1, hostOps1_1, hostOps1_2, List.flatten_cons, List.flatten_nil, List.append_nil, List.cons_append, List.nil_append]
  show StableHlo.after _ _ (Proc.devRef .tc main_v11) = _
  after_results
  simp only [StableHlo.TRef.ofBuf, StableHlo.TRef.toBuf, cast_eq]
  rw [e2, e3]
  funext j
  show Scalar.select (Ideal.cmp .ogt (sumOf A3 j) (Ideal.ofBits .f32 0x00000000#32))
      (Ideal.div (sumOf A2 j) (max (sumOf A3 j) Cert.Spec.one)) (Ideal.ofBits .f32 0x00000000#32) * Cert.Spec.one = _
  rw [sumOf_apply A3 j, sumOf_apply A2 j, Ideal.ofBits_zero_f32]
  -- the comparison with 0 is the bit 1 exactly when the count sum is positive
  generalize (∑ n : Fin 2, A3 (ix3 n (0 : Fin 8) (0 : Fin 128))) = s3
  generalize (∑ n : Fin 2, A2 (ix3 n (0 : Fin 8) (0 : Fin 128))) = s2
  by_cases h : 0 < s3
  · have hc : Ideal.cmp .ogt s3 0 = 1#1 := by simp [Ideal.cmp, h]
    rw [if_pos h, hc, select_one]
  · have hc : Ideal.cmp .ogt s3 0 = 0#1 := by simp [Ideal.cmp, h]
    rw [if_neg h, hc, select_zero]

end Cert.KernelIdeal.KV

end
-- ==== Proof.KRun.lean ====
/-
  The idealized kernel's run read as a value: over the sixteen row-blocks of a sample the two output blocks accumulate
  the row-blocks' losses and counts; the host lines after the call add the two samples' entries and divide.
-/
import proofs.«116369_j89309549953719_1_alg».proof.Proof.KOut
import proofs.«116369_j89309549953719_1_alg».proof.Proof.KTail
import Idealize.ShloMosaic.Lib.StableHlo.Run

noncomputable section

open Idealize.ShloMosaic Idealize.ShloMosaic.TcCoe Idealize.SL.Sem Idealize.ShloMosaic.ValueIdx

namespace Cert.KernelIdeal.KV

open Cert.KernelIdeal Cert.KernelIdeal.Gen
open Idealize.ShloMosaic.Pipeline (Dat)

section Values

variable (m : (ℓ : Loc nD τ sig) → Buf (Elt Ideal) ℓ)

/-- The two argument arrays as the call finds them, and the blocks of them that grid point `t` reads. -/
private abbrev xarr (c : Dev nD) : Vec Ideal S3x2x256x128x128 .f32 := V m c main_arg0
private abbrev larr (c : Dev nD) : Vec Ideal S3x2x1x128x128 .i32 := V m c main_arg1
private abbrev xblk (c : Dev nD) (t : Fin cfg0.N) : Vec Ideal S3x1x256x8x128 .f32 := iblk m c 0 t
private abbrev lblk (c : Dev nD) (t : Fin cfg0.N) : Vec Ideal S3x1x1x8x128 .i32 := iblk m c 1 t

/-- Where the blocks sit: at point `t = n * 16 + rb` both input blocks are at sample `n` and row-block `rb` (block index
    `n` on the sample axis, `rb` on the row axis, 0 elsewhere), both output blocks at sample `n`. -/
private theorem idx_facts : ∀ t : Fin cfg0.N,
    win0_0.index t 0 = 0 ∧ win0_0.index t 1 = t.val / 16 ∧ win0_0.index t 2 = 0 ∧ win0_0.index t 3 = t.val % 16 ∧ win0_0.index t 4 = 0
    ∧ win0_1.index t 0 = 0 ∧ win0_1.index t 1 = t.val / 16 ∧ win0_1.index t 2 = 0 ∧ win0_1.index t 3 = t.val % 16 ∧ win0_1.index t 4 = 0
    ∧ win0_2.index t 0 = t.val / 16 ∧ win0_2.index t 1 = 0 ∧ win0_2.index t 2 = 0
    ∧ win0_3.index t 0 = t.val / 16 ∧ win0_3.index t 1 = 0 ∧ win0_3.index t 2 = 0 :=
  (by decide +kernel : ∀ t : Fin grid0.N, _)

/-- The sample of grid point `n`. -/
private def smp (n : ℕ) : Fin 2 := ⟨n / 16 % 2, by omega⟩
/-- Its row-block. -/
private def rbk (n : ℕ) : Fin 16 := ⟨n % 16, by omega⟩

/-- Entry (f, 0, ch, h, w) of the features block at point `t` is the array's entry (f, n, ch, rb * 8 + h, w). -/
private theorem xblk_apply (c : Dev nD) (t : Fin cfg0.N) (f : Fin 3) (ch : Fin 256) (h : Fin 8) (w : Fin 128) :
    xblk m c t (ix5 f (0 : Fin 1) ch h w)
      = xarr m c (ix5 f (smp t.val) ch (Cert.Spec.at8 (rbk t.val) h) w) := by
  obtain ⟨e0, e1, e2, e3, e4, -⟩ := idx_facts t
  have hN : t.val < 32 := lt_of_lt_of_eq t.isLt (show cfg0.N = 32 from N_0)
  show V m c main_arg0 (((cfg0.win 0).blk t).view.emb (ix5 f (0 : Fin 1) ch h w)) = V m c main_arg0 _
  refine congrArg _ ?_
  funext a; apply Fin.ext
  match a with
  | ⟨0, _⟩ => show win0_0.index t 0 * 3 + 1 * f.val = f.val; rw [e0]; omega
  | ⟨1, _⟩ => show win0_0.index t 1 * 1 + 1 * 0 = t.val / 16 % 2; rw [e1]; omega
  | ⟨2, _⟩ => show win0_0.index t 2 * 256 + 1 * ch.val = ch.val; rw [e2]; omega
  | ⟨3, _⟩ => show win0_0.index t 3 * 8 + 1 * h.val = t.val % 16 * 8 + h.val; rw [e3]; omega
  | ⟨4, _⟩ => show win0_0.index t 4 * 128 + 1 * w.val = w.val; rw [e4]; omega

/-- Entry (f, 0, 0, h, w) of the labels block at point `t` is the array's entry (f, n, 0, rb * 8 + h, w). -/
private theorem lblk_apply (c : Dev nD) (t : Fin cfg0.N) (f : Fin 3) (h : Fin 8) (w : Fin 128) :
    lblk m c t (ix5 f (0 : Fin 1) (0 : Fin 1) h w)
      = larr m c (ix5 f (smp t.val) (0 : Fin 1) (Cert.Spec.at8 (rbk t.val) h) w) := by
  obtain ⟨-, -, -, -, -, e0, e1, e2, e3, e4, -⟩ := idx_facts t
  have hN : t.val < 32 := lt_of_lt_of_eq t.isLt (show cfg0.N = 32 from N_0)
  show V m c main_arg1 (((cfg0.win 1).blk t).view.emb (ix5 f (0 : Fin 1) (0 : Fin 1) h w)) = V m c main_arg1 _
  refine congrArg _ ?_
  funext a; apply Fin.ext
  match a with
  | ⟨0, _⟩ => show win0_1.index t 0 * 3 + 1 * f.val = f.val; rw [e0]; omega
  | ⟨1, _⟩ => show win0_1.index t 1 * 1 + 1 * 0 = t.val / 16 % 2; rw [e1]; omega
  | ⟨2, _⟩ => show win0_1.index t 2 * 1 + 1 * 0 = 0; rw [e2]
  | ⟨3, _⟩ => show win0_1.index t 3 * 8 + 1 * h.val = t.val % 16 * 8 + h.val; rw [e3]; omega
  | ⟨4, _⟩ => show win0_1.index t 4 * 128 + 1 * w.val = w.val; rw [e4]; omega

/-- So the blocks at point `t` are row-block `rb` of sample `n` of the arrays. -/
private theorem pxOf_xblk (c : Dev nD) (t : Fin cfg0.N) :
    pxOf (xblk m c t) = Cert.Spec.blkPx (xarr m c) (smp t.val) (rbk t.val) := by
  funext f ch h w; exact xblk_apply m c t f ch h w

private theorem lbOf_lblk (c : Dev nD) (t : Fin cfg0.N) :
    lbOf (lblk m c t) = Cert.Spec.blkLb (larr m c) (smp t.val) (rbk t.val) := by
  funext f h w; exact lblk_apply m c t f h w

/-- A block's labels are labels of the array: below 19 when the array's are. -/
private theorem lblk_lt (c : Dev nD) (hlab : ∀ i, (larr m c i).toNat < 19) (t : Fin cfg0.N) : ∀ i, (lblk m c t i).toNat < 19 :=
  fun i => hlab (((cfg0.win 1).blk t).view.emb i)

/-- A quantity that restarts at `0 + a n` at every point divisible by 16 and adds `a n` at the others is, at point `n`,
    the sum of `a` over the points of `n`'s stretch of sixteen up to `n`. -/
private theorem run_sum (N : ℕ) (f : (n : ℕ) → n < N → EReal) (a : ℕ → EReal)
    (hA : ∀ n (h : n < N), n % 16 = 0 → f n h = 0 + a n)
    (hB : ∀ n (h : n + 1 < N), ¬(n + 1) % 16 = 0 → f (n + 1) h = f n (Nat.lt_of_succ_lt h) + a (n + 1)) :
    ∀ n (h : n < N), f n h = ∑ j ∈ Finset.range (n % 16 + 1), a (n - n % 16 + j)
  | 0, h => by
    rw [hA 0 h rfl, zero_add]
    show a 0 = ∑ j ∈ Finset.range 1, a (0 + j)
    rw [Finset.sum_range_one]
  | n + 1, h => by
    by_cases h0 : (n + 1) % 16 = 0
    · rw [hA (n + 1) h h0, zero_add, h0]
      show a (n + 1) = ∑ j ∈ Finset.range 1, a (n + 1 - 0 + j)
      rw [Finset.sum_range_one]
      rfl
    · rw [hB n h h0, run_sum N f a hA hB n (Nat.lt_of_succ_lt h)]
      have e1 : (n + 1) % 16 = n % 16 + 1 := by omega
      have e2 : n + 1 - (n % 16 + 1) = n - n % 16 := by omega
      have e3 : n - n % 16 + (n % 16 + 1) = n + 1 := by omega
      rw [e1, e2, Finset.sum_range_succ _ (n % 16 + 1), e3]

/-- The loss that the row-block of point `n` contributes. -/
private def aL (c : Dev nD) (n : ℕ) : EReal :=
  Cert.Spec.blockLoss (Cert.Spec.blkPx (xarr m c) (smp n) (rbk n)) (Cert.Spec.blkLb (larr m c) (smp n) (rbk n))
/-- The number of patches with a valid label that the row-block of point `n` contributes. -/
private def aC (c : Dev nD) (n : ℕ) : EReal := Cert.Spec.blockCount (Cert.Spec.blkLb (larr m c) (smp n) (rbk n))

/-- After point `n` every entry of the loss block holds the sum of the row-block losses of `n`'s sample up to `n`. -/
private theorem outs_loss (c : Dev nD) (hlab : ∀ i, (larr m c i).toNat < 19) (y : S1x8x128.Idx) :
    ∀ n (h : n < cfg0.N), (outsAt0 m c n h).1 y = ∑ j ∈ Finset.range (n % 16 + 1), aL m c (n - n % 16 + j) := by
  refine run_sum cfg0.N (fun n h => (outsAt0 m c n h).1 y) (aL m c) ?_ ?_
  · intro n h h0
    show (outsAt0 m c n h).1 y = 0 + aL m c n
    rw [outsAt0_A m c ⟨n, h⟩ h0]
    dsimp only
    refine (congrFun (out_A_2 (F := Ideal) c (grid0.coords ⟨n, h⟩) (ms0_0 ⟨n, h⟩) (hs0_0 ⟨n, h⟩) (ms0_1 ⟨n, h⟩) (hs0_1 ⟨n, h⟩)
      (ms0_2 ⟨n, h⟩) (hs0_2 ⟨n, h⟩) (ms0_3 ⟨n, h⟩) (hs0_3 ⟨n, h⟩) (xblk m c ⟨n, h⟩) (lblk m c ⟨n, h⟩)
      ((hcond0_0 ⟨n, h⟩).mpr h0)) y).trans ?_
    refine (lossOut_apply (xblk m c ⟨n, h⟩) (lblk m c ⟨n, h⟩) (lblk_lt m c hlab ⟨n, h⟩) (k0_pay3 (F := Ideal)) y).trans ?_
    rw [pay3_apply y, pxOf_xblk, lbOf_lblk]
    rfl
  · intro n h h0
    show (outsAt0 m c (n + 1) h).1 y = (outsAt0 m c n (Nat.lt_of_succ_lt h)).1 y + aL m c (n + 1)
    rw [outsAt0_B m c ⟨n + 1, h⟩ h0]
    dsimp only
    refine (congrFun (out_B_2 (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (xblk m c ⟨n + 1, h⟩) (lblk m c ⟨n + 1, h⟩)
      (outsAt0 m c n (Nat.lt_of_succ_lt h)).1 (outsAt0 m c n (Nat.lt_of_succ_lt h)).2
      (fun hh => h0 ((hcond0_0 ⟨n + 1, h⟩).mp hh))) y).trans ?_
    refine (lossOut_apply (xblk m c ⟨n + 1, h⟩) (lblk m c ⟨n + 1, h⟩) (lblk_lt m c hlab ⟨n + 1, h⟩) (outsAt0 m c n (Nat.lt_of_succ_lt h)).1 y).trans ?_
    rw [pxOf_xblk, lbOf_lblk]
    rfl

/-- After point `n` every entry of the count block holds the number of patches with a valid label in the row-blocks of
    `n`'s sample up to `n`. -/
private theorem outs_count (c : Dev nD) (hlab : ∀ i, (larr m c i).toNat < 19) (y : S1x8x128.Idx) :
    ∀ n (h : n < cfg0.N), (outsAt0 m c n h).2 y = ∑ j ∈ Finset.range (n % 16 + 1), aC m c (n - n % 16 + j) := by
  refine run_sum cfg0.N (fun n h => (outsAt0 m c n h).2 y) (aC m c) ?_ ?_
  · intro n h h0
    show (outsAt0 m c n h).2 y = 0 + aC m c n
    rw [outsAt0_A m c ⟨n, h⟩ h0]
    dsimp only
    refine (congrFun (out_A_3 (F := Ideal) c (grid0.coords ⟨n, h⟩) (ms0_0 ⟨n, h⟩) (hs0_0 ⟨n, h⟩) (ms0_1 ⟨n, h⟩) (hs0_1 ⟨n, h⟩)
      (ms0_2 ⟨n, h⟩) (hs0_2 ⟨n, h⟩) (ms0_3 ⟨n, h⟩) (hs0_3 ⟨n, h⟩) (xblk m c ⟨n, h⟩) (lblk m c ⟨n, h⟩)
      ((hcond0_0 ⟨n, h⟩).mpr h0)) y).trans ?_
    refine (countOut_apply (lblk m c ⟨n, h⟩) (lblk_lt m c hlab ⟨n, h⟩) (k0_pay4 (F := Ideal)) y).trans ?_
    rw [pay4_apply y, lbOf_lblk]
    rfl
  · intro n h h0
    show (outsAt0 m c (n + 1) h).2 y = (outsAt0 m c n (Nat.lt_of_succ_lt h)).2 y + aC m c (n + 1)
    rw [outsAt0_B m c ⟨n + 1, h⟩ h0]
    dsimp only
    refine (congrFun (out_B_3 (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) (xblk m c ⟨n + 1, h⟩) (lblk m c ⟨n + 1, h⟩)
      (outsAt0 m c n (Nat.lt_of_succ_lt h)).1 (outsAt0 m c n (Nat.lt_of_succ_lt h)).2
      (fun hh => h0 ((hcond0_0 ⟨n + 1, h⟩).mp hh))) y).trans ?_
    refine (countOut_apply (lblk m c ⟨n + 1, h⟩) (lblk_lt m c hlab ⟨n + 1, h⟩) (outsAt0 m c n (Nat.lt_of_succ_lt h)).2 y).trans ?_
    rw [lbOf_lblk]
    rfl

/-- The loss array: every entry of sample `n`'s block holds the sum over the sample's sixteen row-blocks of the
    row-block's loss. -/
private abbrev lossArr (x : Cert.Spec.SX.Idx → EReal) (mk : Cert.Spec.SM.Idx → BitVec 32) : S2x8x128.Idx → EReal :=
  fun i => ∑ rb : Fin 16, Cert.Spec.blockLoss (Cert.Spec.blkPx x (i 0) rb) (Cert.Spec.blkLb mk (i 0) rb)
/-- The count array: the same with the row-block's number of patches with a valid label. -/
private abbrev countArr (mk : Cert.Spec.SM.Idx → BitVec 32) : S2x8x128.Idx → EReal :=
  fun i => ∑ rb : Fin 16, Cert.Spec.blockCount (Cert.Spec.blkLb mk (i 0) rb)

/-- The points of the last row-block's stretch: point `t - 15 + rb` is row-block `rb` of `t`'s sample. -/
private theorem smp_last (t : ℕ) (ht : t < 32) (h15 : t % 16 = 15) (rb : Fin 16) : smp (t - 15 + rb.val) = ⟨t / 16, by omega⟩ :=
  Fin.ext (by show (t - 15 + rb.val) / 16 % 2 = t / 16; have := rb.isLt; omega)
/-- … and its row-block is `rb`. -/
private theorem rbk_last (t : ℕ) (h15 : t % 16 = 15) (rb : Fin 16) : rbk (t - 15 + rb.val) = rb :=
  Fin.ext (by show (t - 15 + rb.val) % 16 = rb.val; have := rb.isLt; omega)

/-- What the last row-block's point of a sample writes back is the sample's block of the loss array. -/
private theorem flushed2_eq (c : Dev nD) (hlab : ∀ i, (larr m c i).toNat < 19) (t : Fin cfg0.N) (hf : (cfg0.win 2).flush t = true) :
    (dats m 0 c).flushed 2 t = ((cfg0.win 2).blk t).view.read (Elt Ideal) (lossArr (xarr m c) (larr m c)) := by
  have h15 : t.val % 16 = 15 := (flush0_2 t).mp hf
  have hN : t.val < 32 := lt_of_lt_of_eq t.isLt (show cfg0.N = 32 from N_0)
  obtain ⟨-, -, -, -, -, -, -, -, -, -, e0, -⟩ := idx_facts t
  show (cfg0.win 2).cut (grid0.coords t) ((dats m 0 c).after 2 t) = _
  rw [after0_2]
  funext y
  rw [View.read_apply]
  show (outsAt0 m c t.val t.isLt).1 y = lossArr (xarr m c) (larr m c) (((cfg0.win 2).blk t).view.emb y)
  rw [outs_loss m c hlab y t.val t.isLt, h15, Finset.sum_range]
  refine Finset.sum_congr rfl fun rb _ => ?_
  have hy : (y 0).val < 1 := (y 0).isLt
  have e : (⟨t.val / 16, by omega⟩ : Fin 2) = ((cfg0.win 2).blk t).view.emb y 0 :=
    Fin.ext (by show t.val / 16 = win0_2.index t 0 * 1 + 1 * (y 0).val; rw [e0]; omega)
  unfold aL
  rw [smp_last t.val hN h15 rb, rbk_last t.val h15 rb, e]

/-- The count array likewise. -/
private theorem flushed3_eq (c : Dev nD) (hlab : ∀ i, (larr m c i).toNat < 19) (t : Fin cfg0.N) (hf : (cfg0.win 3).flush t = true) :
    (dats m 0 c).flushed 3 t = ((cfg0.win 3).blk t).view.read (Elt Ideal) (countArr (larr m c)) := by
  have h15 : t.val % 16 = 15 := (flush0_3 t).mp hf
  have hN : t.val < 32 := lt_of_lt_of_eq t.isLt (show cfg0.N = 32 from N_0)
  obtain ⟨-, -, -, -, -, -, -, -, -, -, -, -, -, e0, -⟩ := idx_facts t
  show (cfg0.win 3).cut (grid0.coords t) ((dats m 0 c).after 3 t) = _
  rw [after0_3]
  funext y
  rw [View.read_apply]
  show (outsAt0 m c t.val t.isLt).2 y = countArr (larr m c) (((cfg0.win 3).blk t).view.emb y)
  rw [outs_count m c hlab y t.val t.isLt, h15, Finset.sum_range]
  refine Finset.sum_congr rfl fun rb _ => ?_
  have hy : (y 0).val < 1 := (y 0).isLt
  have e : (⟨t.val / 16, by omega⟩ : Fin 2) = ((cfg0.win 3).blk t).view.emb y 0 :=
    Fin.ext (by show t.val / 16 = win0_3.index t 0 * 1 + 1 * (y 0).val; rw [e0]; omega)
  unfold aC
  rw [smp_last t.val hN h15 rb, rbk_last t.val h15 rb, e]

/-- Every entry of sample `n`'s block is written back by the point of the sample's last row-block. -/
private theorem cover2 (i : S2x8x128.Idx) : ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 128 := (i 2).isLt
  have hN : cfg0.N = 32 := N_0
  obtain ⟨t, ht⟩ : ∃ t : Fin cfg0.N, t.val = (i 0).val * 16 + 15 := ⟨⟨(i 0).val * 16 + 15, by omega⟩, rfl⟩
  obtain ⟨-, -, -, -, -, -, -, -, -, -, e0, e1, e2, -⟩ := idx_facts t
  refine ⟨t, (flush0_2 t).mpr (by omega), ?_⟩
  show i ∈ ((View.whole main_v0_0).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 8 ≤ (i 1).val ∧ (i 1).val < win0_2.index t 1 * 8 + 8; rw [e1]; omega
  | ⟨2, _⟩ => show win0_2.index t 2 * 128 ≤ (i 2).val ∧ (i 2).val < win0_2.index t 2 * 128 + 128; rw [e2]; omega

/-- The same for the count array. -/
private theorem cover3 (i : S2x8x128.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 128 := (i 2).isLt
  have hN : cfg0.N = 32 := N_0
  obtain ⟨t, ht⟩ : ∃ t : Fin cfg0.N, t.val = (i 0).val * 16 + 15 := ⟨⟨(i 0).val * 16 + 15, by omega⟩, rfl⟩
  obtain ⟨-, -, -, -, -, -, -, -, -, -, -, -, -, e0, e1, e2⟩ := idx_facts t
  refine ⟨t, (flush0_3 t).mpr (by omega), ?_⟩
  show i ∈ ((View.whole main_v0_1).slice (win0_3.rect t)).set
  rw [View.set_slice_whole, Rect.mem_set_unit]
  intro a
  match a with
  | ⟨0, _⟩ => show win0_3.index t 0 * 1 ≤ (i 0).val ∧ (i 0).val < win0_3.index t 0 * 1 + 1; rw [e0]; omega
  | ⟨1, _⟩ => show win0_3.index t 1 * 8 ≤ (i 1).val ∧ (i 1).val < win0_3.index t 1 * 8 + 8; rw [e1]; omega
  | ⟨2, _⟩ => show win0_3.index t 2 * 128 ≤ (i 2).val ∧ (i 2).val < win0_3.index t 2 * 128 + 128; rw [e2]; omega

/-- So the loss array ends holding the sums over each sample's sixteen row-blocks. -/
private theorem final2 (c : Dev nD) (hlab : ∀ i, (larr m c i).toNat < 19) :
    (dats m 0 c).arrAt 2 cfg0.N = lossArr (xarr m c) (larr m c) :=
  (dats m 0 c).arrAt_eq_of_cover 2 (lossArr (xarr m c) (larr m c)) (flushed2_eq m c hlab) cover2

/-- The count array ends holding the sums of the counts. -/
private theorem final3 (c : Dev nD) (hlab : ∀ i, (larr m c i).toNat < 19) :
    (dats m 0 c).arrAt 3 cfg0.N = countArr (larr m c) :=
  (dats m 0 c).arrAt_eq_of_cover 3 (countArr (larr m c)) (flushed3_eq m c hlab) cover3

end Values

/-- The run: the two output arrays end at the per-sample sums, the lines after the call add the two samples' entries
    and divide, which is the loss as one function of the arrays; the arguments are inputs of the call and are not
    written. -/
theorem run (m : (ℓ : Loc nD τ sig) → Buf (Elt Ideal) ℓ) (ρ : Dev nD → PrngReg)
    (hlab : ∀ (c : Dev nD) i, (m ((c.tc : Thread nD τ).loc main_arg1) i).toNat < 19) :
    θ_run (defs (F := Ideal)) (onTc (τ := τ) (main (F := Ideal))) ⟨m, fun _ => 0, ρ⟩ (fun r => ∀ c : Dev nD,
      r.2.mem ((c.tc : Thread nD τ).loc main_v11)
          = (fun _ => Cert.Spec.result (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run (defs (F := Ideal)) _ _).mono (fun r h c => ?_) (run_main m ρ)
  have hl : ∀ i, (larr m c i).toNat < 19 := hlab c
  refine ⟨?_, ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩
  rw [(h c).2 main_v11 (Pipeline.mem_restRefs_of main_v11 rfl (by decide)),
    tail_value m c _ _ (final2 m c hl) (final3 m c hl)]
  funext _
  unfold Cert.Spec.result Cert.Spec.totalLoss Cert.Spec.totalCount
  rfl

end Cert.KernelIdeal.KV

end
-- ==== Proof.RefIndex.lean ====
/-
  The reference's cut into patches, read at an index: the image axes 128 × 128 are split into (16, 8) × (16, 8), the
  two patch coordinates are moved in front of the channel and the two in-patch coordinates behind it, and the pairs are
  merged; so entry (patch rb·16 + cb, channel c, pixel hi·8 + wi) is the image's entry at row rb·8 + hi, column cb·8 + wi.
-/
import proofs.«116369_j89309549953719_1_alg».proof.Proof.RefRead
import proofs.«116369_j89309549953719_1_alg».proof.Proof.Spec

noncomputable section

open Idealize.ShloMosaic Idealize.ShloMosaic.TcCoe Idealize.SL.Sem Idealize.ShloMosaic.ValueIdx

namespace Cert.ReferenceIdeal.RefIndex

open Cert.ReferenceIdeal Cert.ReferenceIdeal.Gen Cert.ReferenceIdeal.Read

variable {F : FTy → Type} [FloatOps F]

/-- Rank 7: the row-major position as one sum of products. -/
private theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5
          + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- The index (f, n, rb, cb, c, hi, wi) of the array with the patch coordinates in front of the channel. -/
private abbrev ixP {m : Nat} (f : Fin 3) (n : Fin 2) (rb cb : Fin 16) (c : Fin m) (hi wi : Fin 8) :
    (⟨7, ![3, 2, 16, 16, m, 8, 8]⟩ : Shape).Idx :=
  fun a => match a with
    | ⟨0, _⟩ => f | ⟨1, _⟩ => n | ⟨2, _⟩ => rb | ⟨3, _⟩ => cb | ⟨4, _⟩ => c | ⟨5, _⟩ => hi | ⟨6, _⟩ => wi

theorem v7_apply (x0 : (⟨S3x2x256x128x128, .f32⟩ : BufTy).Contents (Elt F)) (f : Fin 3) (n : Fin 2) (rb cb : Fin 16)
    (c : Fin 256) (hi wi : Fin 8) :
    val_main_v7 (F := F) x0 (ix5 f n (Cert.Spec.pq rb cb) c (Cert.Spec.bq hi wi))
      = val_main_v4 (F := F) x0 (ix5 f n c (Cert.Spec.at8 rb hi) (Cert.Spec.at8 cb wi)) := by
  have hf : f.val < 3 := f.isLt
  have hn : n.val < 2 := n.isLt
  have hrb : rb.val < 16 := rb.isLt
  have hcb : cb.val < 16 := cb.isLt
  have hc : c.val < 256 := c.isLt
  have hhi : hi.val < 8 := hi.isLt
  have hwi : wi.val < 8 := wi.isLt
  -- merged position (p, c, b) and split position (rb, cb, c, hi, wi) have the same row-major rank
  unfold val_main_v7
  rw [shapeCast_apply (val_main_v6 (F := F) x0) shapeCasts_S3x2x16x16x256x8x8_S3x2x256x256x64
    (ix5 f n (Cert.Spec.pq rb cb) c (Cert.Spec.bq hi wi)) (ixP f n rb cb c hi wi)
    (by
      rw [rowMajor_val_seven, Shape.rowMajor_val_five]
      show (((((f.val * 2 + n.val) * 16 + rb.val) * 16 + cb.val) * 256 + c.val) * 8 + hi.val) * 8 + wi.val
        = (((f.val * 2 + n.val) * 256 + (rb.val * 16 + cb.val)) * 256 + c.val) * 64 + (hi.val * 8 + wi.val)
      omega)]
  -- the transposition reads (f, n, c, rb, hi, cb, wi), whose row-major rank is that of (f, n, c, rb·8 + hi, cb·8 + wi)
  rw [val_main_v6_apply]
  unfold val_main_v5
  exact shapeCast_apply (val_main_v4 (F := F) x0) shapeCasts_S3x2x256x128x128_S3x2x256x16x8x16x8
    (idx_main_v6 (ixP f n rb cb c hi wi)) (ix5 f n c (Cert.Spec.at8 rb hi) (Cert.Spec.at8 cb wi))
    (by
      rw [rowMajor_val_seven, Shape.rowMajor_val_five]
      show (((f.val * 2 + n.val) * 256 + c.val) * 128 + (rb.val * 8 + hi.val)) * 128 + (cb.val * 8 + wi.val)
        = (((((f.val * 2 + n.val) * 256 + c.val) * 16 + rb.val) * 8 + hi.val) * 16 + cb.val) * 8 + wi.val
      omega)

theorem v11_apply (x1 : (⟨S3x2x1x128x128, .i32⟩ : BufTy).Contents (Elt F)) (f : Fin 3) (n : Fin 2) (rb cb : Fin 16)
    (hi wi : Fin 8) :
    val_main_v11 (F := F) x1 (ix4 f n (Cert.Spec.pq rb cb) (Cert.Spec.bq hi wi))
      = x1 (ix5 f n (0 : Fin 1) (Cert.Spec.at8 rb hi) (Cert.Spec.at8 cb wi)) := by
  have hf : f.val < 3 := f.isLt
  have hn : n.val < 2 := n.isLt
  have hrb : rb.val < 16 := rb.isLt
  have hcb : cb.val < 16 := cb.isLt
  have hhi : hi.val < 8 := hi.isLt
  have hwi : wi.val < 8 := wi.isLt
  -- a unit axis is inserted behind the patch axis, then the same three steps as for the features with channel 0 of 1
  unfold val_main_v11
  rw [shapeCast_apply (val_main_v10 (F := F) x1) shapeCasts_S3x2x256x1x64_S3x2x256x64
    (ix4 f n (Cert.Spec.pq rb cb) (Cert.Spec.bq hi wi)) (ix5 f n (Cert.Spec.pq rb cb) (0 : Fin 1) (Cert.Spec.bq hi wi))
    (by
      rw [Shape.rowMajor_val_five, Shape.rowMajor_val_four]
      show (((f.val * 2 + n.val) * 256 + (rb.val * 16 + cb.val)) * 1 + 0) * 64 + (hi.val * 8 + wi.val)
        = ((f.val * 2 + n.val) * 256 + (rb.val * 16 + cb.val)) * 64 + (hi.val * 8 + wi.val)
      omega)]
  unfold val_main_v10
  rw [shapeCast_apply (val_main_v9 (F := F) x1) shapeCasts_S3x2x16x16x1x8x8_S3x2x256x1x64
    (ix5 f n (Cert.Spec.pq rb cb) (0 : Fin 1) (Cert.Spec.bq hi wi)) (ixP f n rb cb (0 : Fin 1) hi wi)
    (by
      rw [rowMajor_val_seven, Shape.rowMajor_val_five]
      show (((((f.val * 2 + n.val) * 16 + rb.val) * 16 + cb.val) * 1 + 0) * 8 + hi.val) * 8 + wi.val
        = (((f.val * 2 + n.val) * 256 + (rb.val * 16 + cb.val)) * 1 + 0) * 64 + (hi.val * 8 + wi.val)
      omega)]
  rw [val_main_v9_apply]
  unfold val_main_v8
  exact shapeCast_apply x1 shapeCasts_S3x2x1x128x128_S3x2x1x16x8x16x8
    (idx_main_v9 (ixP f n rb cb (0 : Fin 1) hi wi)) (ix5 f n (0 : Fin 1) (Cert.Spec.at8 rb hi) (Cert.Spec.at8 cb wi))
    (by
      rw [rowMajor_val_seven, Shape.rowMajor_val_five]
      show (((f.val * 2 + n.val) * 1 + 0) * 128 + (rb.val * 8 + hi.val)) * 128 + (cb.val * 8 + wi.val)
        = (((((f.val * 2 + n.val) * 1 + 0) * 16 + rb.val) * 8 + hi.val) * 16 + cb.val) * 8 + wi.val
      omega)

end Cert.ReferenceIdeal.RefIndex

end
-- ==== Proof.RefFolds.lean ====
/-
  Two folds of the reference read as what they mean: a conjunction over the three frames, and a count of set bits
  (an integer sum, small enough not to wrap) cast to a float.
-/
import proofs.«116369_j89309549953719_1_alg».proof.ReferenceIdeal
import proofs.«116369_j89309549953719_1_alg».proof.Proof.Gen.ReferenceIdeal
import Idealize.ShloMosaic.PureOps.Ideal
import Idealize.ShloMosaic.PureOps.Ideal.Laws
import Idealize.ShloMosaic.PureOps.BitExact.Laws
import Idealize.ShloMosaic.Lib.ReduceAll
import Idealize.ShloMosaic.Lib.StableHlo.Predicate
import Idealize.ShloMosaic.Lib.ValueIdx

noncomputable section

open Idealize.ShloMosaic Idealize.ShloMosaic.TcCoe Idealize.SL.Sem Idealize.ShloMosaic.ValueIdx

namespace Cert.ReferenceIdeal.RefFolds

open Cert.ReferenceIdeal Cert.ReferenceIdeal.Gen

/-- A fold by conjunction from one, over any finite set of bits, is one exactly where every bit of the set is. -/
private theorem fold_andi_eq_one {ι : Type} (S : Finset ι) (g : ι → BitVec 1) :
    S.fold IntOp.andi 1#1 g = 1#1 ↔ ∀ f ∈ S, g f = 1#1 := by
  induction S using Finset.cons_induction with
  | empty => simp
  | cons a S ha ih =>
    rw [Finset.fold_cons, IntOp.andi_eq_one, ih]
    simp only [Finset.mem_cons, forall_eq_or_imp]

/-- A count of indicator values, cast to an extended real, is the sum of the indicators as extended reals
    (the cast is additive on reals, term by term). -/
private theorem coe_sum_ite {ι : Type} (S : Finset ι) (P : ι → Prop) [DecidablePred P] :
    (((∑ i ∈ S, (if P i then 1 else 0 : ℕ) : ℕ) : ℝ) : EReal) = ∑ i ∈ S, (if P i then (1 : EReal) else 0) := by
  induction S using Finset.cons_induction with
  | empty => simp
  | cons a S ha ih =>
    rw [Finset.sum_cons, Finset.sum_cons, Nat.cast_add, EReal.coe_add, ih]
    congr 1
    split <;> simp

/-- The and-fold over the frame axis is set exactly where all three frames' bits are. -/
theorem all_frames (x : IVec S3x2x256x19 1) (n : Fin 2) (p : Fin 256) (k : Fin 19) :
    Host.reduce IntOp.andi x (constantI S_ 1 1#1) reducesTo_S3x2x256x19_S2x256x19_d0 h_S_ (ix3 n p k) = 1#1
      ↔ ∀ f : Fin 3, x (ix4 f n p k) = 1#1 := by
  have hR : S3x2x256x19.Reduces [0] S2x256x19 := by decide
  -- the fold over the one reduced axis runs over the three frames, each frame inserted in front of (n, p, k)
  rw [Host.reduce_eq_fold_single IntOp.andi x _ reducesTo_S3x2x256x19_S2x256x19_d0 hR h_S_ (ix3 n p k)]
  have hl : ∀ f : Fin 3, hR.lift (ix3 n p k) f = ix4 f n p k := fun f => by
    funext c
    match c with
    | ⟨0, _⟩ => rfl
    | ⟨1, _⟩ => rfl
    | ⟨2, _⟩ => rfl
    | ⟨3, _⟩ => rfl
  refine (fold_andi_eq_one (Finset.univ : Finset (Fin 3)) (fun f => x (hR.lift (ix3 n p k) f))).trans ?_
  simp only [Finset.mem_univ, forall_true_left, hl]

/-- The integer sum of 512 bits, cast to a float, is the sum of the bits as extended reals. -/
theorem count_cast (b : IVec S2x256 1) :
    FloatOps.sitofp (F := Ideal) .f32
        (Host.reduce IntOp.addi (extui 32 b natLt_1_32) (constantI S_ 32 0#32) reducesTo_S2x256_S_d0_1 h_S_ ix0)
      = ∑ n : Fin 2, ∑ p : Fin 256, (if b (ix2 n p) = 1#1 then (1 : EReal) else 0) := by
  classical
  -- the reduction to a scalar folds over every index of the 2 × 256 array
  have hall : (Finset.univ.filter fun i : S2x256.Idx => reducesTo_S2x256_S_d0_1.drop i = ix0) = Finset.univ :=
    Finset.filter_true_of_mem fun i _ => funext fun d => d.elim0
  -- a widened bit is worth one where it is set, zero elsewhere
  have hval : ∀ i : S2x256.Idx, (extui 32 b natLt_1_32 i).toNat = if b i = 1#1 then 1 else 0 :=
    fun i => StableHlo.Predicate.toNat_setWidth_bit (b i)
  -- the sum of the 512 bits is at most 512: the 32-bit sum does not wrap
  have hle : ∑ i : S2x256.Idx, (extui 32 b natLt_1_32 i).toNat ≤ 512 := by
    calc ∑ i : S2x256.Idx, (extui 32 b natLt_1_32 i).toNat ≤ ∑ i : S2x256.Idx, 1 :=
          Finset.sum_le_sum fun i _ => by rw [hval]; split <;> omega
      _ = 512 := by rw [Finset.sum_const, Finset.card_univ, smul_eq_mul, mul_one]; decide
  have hnat : (Host.reduce IntOp.addi (extui 32 b natLt_1_32) (constantI S_ 32 0#32) reducesTo_S2x256_S_d0_1 h_S_ ix0).toNat
      = ∑ i : S2x256.Idx, (if b i = 1#1 then 1 else 0 : ℕ) := by
    rw [Host.reduce_eq_fold, hall]
    show (Finset.univ.fold IntOp.addi 0#32 (extui 32 b natLt_1_32)).toNat = _
    rw [StableHlo.Predicate.toNat_fold_addi _ _ (by omega)]
    exact Finset.sum_congr rfl fun i _ => hval i
  have hlt : (Host.reduce IntOp.addi (extui 32 b natLt_1_32) (constantI S_ 32 0#32) reducesTo_S2x256_S_d0_1 h_S_ ix0).toNat < 2 ^ 31 := by
    rw [hnat]; simp only [← hval]; omega
  -- the signed reading of a word below 2³¹ is its unsigned one; the cast of the count is the sum of the casts
  show (((Host.reduce IntOp.addi (extui 32 b natLt_1_32) (constantI S_ 32 0#32) reducesTo_S2x256_S_d0_1 h_S_ ix0).toInt : ℝ) : EReal) = _
  rw [StableHlo.Predicate.toInt_eq_toNat_of_lt hlt, Int.cast_natCast, hnat, coe_sum_ite, sum_idx2]

end Cert.ReferenceIdeal.RefFolds

end
-- ==== Proof.RefValue.lean ====
/-
  The reference's result, read stage by stage, is the loss function of the two argument arrays.
-/
import proofs.«116369_j89309549953719_1_alg».proof.Proof.RefIndex
import proofs.«116369_j89309549953719_1_alg».proof.Proof.RefFolds
import proofs.«116369_j89309549953719_1_alg».proof.Proof.LibFinSplit

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- The two argument arrays' types. -/
private abbrev X0 := (⟨S3x2x256x128x128, .f32⟩ : BufTy).Contents (Elt Ideal)
private abbrev X1 := (⟨S3x2x1x128x128, .i32⟩ : BufTy).Contents (Elt Ideal)

/-! ## Re-indexing: a pixel of a patch as (row, column), a patch as (row-block, column-block) -/

/-- A sum over the 64 pixels of a patch is the double sum over its rows and columns. -/
private theorem sum_bq {M : Type*} [AddCommMonoid M] (g : Fin 64 → M) :
    ∑ b : Fin 64, g b = ∑ hi : Fin 8, ∑ wi : Fin 8, g (Cert.Spec.bq hi wi) :=
  Cert.LibFinSplit.sum_split 8 8 g

/-- A sum over the 256 patches is the double sum over row-blocks and column-blocks. -/
private theorem sum_pq {M : Type*} [AddCommMonoid M] (g : Fin 256 → M) :
    ∑ p : Fin 256, g p = ∑ rb : Fin 16, ∑ cb : Fin 16, g (Cert.Spec.pq rb cb) :=
  Cert.LibFinSplit.sum_split 16 16 g

/-! ## Bits: a bit as a number, a comparison with zero, a choice on it -/

/-- A bit read as an unsigned number is 1 where it is set, else 0. -/
private theorem uitofp_bit (b : BitVec 1) : FloatOps.uitofp (F := Ideal) .f32 b = if b = 1#1 then (1 : EReal) else 0 := by
  rcases BitVec.eq_zero_or_eq_one b with h | h
  · subst h; show (((0#1).toNat : ℝ) : EReal) = _; simp
  · subst h; show (((1#1).toNat : ℝ) : EReal) = _; simp

/-- The comparison "greater than zero" is set exactly where the value is positive. -/
private theorem cmp_ogt_zero (v : EReal) : Ideal.cmp .ogt v 0 = 1#1 ↔ 0 < v := by
  unfold Ideal.cmp
  by_cases h : (0 : EReal) < v <;> simp [h]

/-- A choice on that comparison is the conditional on positivity. -/
private theorem select_ogt_zero (v a b : EReal) : Scalar.select (Ideal.cmp .ogt v 0) a b = if 0 < v then a else b := by
  by_cases h : (0 : EReal) < v
  · rw [(cmp_ogt_zero v).mpr h, select_one, if_pos h]
  · rw [eq_zero_of_ne_one (fun h1 => h ((cmp_ogt_zero v).mp h1)), select_zero, if_neg h]

/-! ## The normalised features -/

/-- The feature at a pixel divided by its channel norm: the square root of the sum over the 256 channels of the
    squares, floored at the small constant. -/
private theorem v4_at (x0 : X0) (f : Fin 3) (n : Fin 2) (c : Fin 256) (H W : Fin 128) :
    val_main_v4 (F := Ideal) x0 (ix5 f n c H W)
      = Ideal.div (x0 (ix5 f n c H W))
          (max (Ideal.sqrt (∑ c' : Fin 256, x0 (ix5 f n c' H W) * x0 (ix5 f n c' H W))) Cert.Spec.eps) := by
  have e : ∀ k : Fin 256, idx_main_call0_v1 (idx_main_call0_v2 (idx_main_v3 (ix5 f n c H W))) k = ix5 f n k H W :=
    fun k => funext fun a => Fin.ext (by match a with | ⟨0, _⟩ => rfl | ⟨1, _⟩ => rfl | ⟨2, _⟩ => rfl | ⟨3, _⟩ => rfl | ⟨4, _⟩ => rfl)
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, Ideal.hostDivf_def, Ideal.hostUnary_sqrt_def, Ideal.maximumf_def, Ideal.mulf_def,
    Ideal.ofBits_def, Ideal.ofBits_zero_f32, zero_add, e]

/-- Cut into patches: entry (patch (rb, cb), channel c, pixel (hi, wi)) is the normalised feature of row-block rb at
    row hi, column cb·8 + wi. -/
private theorem v7_at (x0 : X0) (f : Fin 3) (n : Fin 2) (rb cb : Fin 16) (c : Fin 256) (hi wi : Fin 8) :
    val_main_v7 (F := Ideal) x0 (ix5 f n (Cert.Spec.pq rb cb) c (Cert.Spec.bq hi wi))
      = Cert.Spec.xn (Cert.Spec.blkPx x0 n rb) f c hi (Cert.Spec.at8 cb wi) := by
  rw [RefIndex.v7_apply, v4_at]
  rfl

/-! ## The one-hot labels, their counts, and the per-label sums and averages -/

/-- The one-hot entry: the pixel's label compared with k, the bit read as a number. -/
private theorem v18_at (x1 : X1) (f : Fin 3) (n : Fin 2) (rb cb : Fin 16) (hi wi : Fin 8) (k : Fin 19) :
    val_main_v18 (F := Ideal) x1 (ix5 f n (Cert.Spec.pq rb cb) (Cert.Spec.bq hi wi) k)
      = Cert.Spec.oh (Cert.Spec.blkLb x1 n rb) f hi (Cert.Spec.at8 cb wi) k := by
  have e : idx_main_v12 (idx_main_v15 (ix5 f n (Cert.Spec.pq rb cb) (Cert.Spec.bq hi wi) k))
      = ix4 f n (Cert.Spec.pq rb cb) (Cert.Spec.bq hi wi) :=
    funext fun a => Fin.ext (by match a with | ⟨0, _⟩ => rfl | ⟨1, _⟩ => rfl | ⟨2, _⟩ => rfl | ⟨3, _⟩ => rfl)
  rw [val_main_v18_apply, val_main_v17_apply, val_main_v15_apply, val_main_v12_apply, val_main_v16_apply,
    val_main_v14_apply, val_main_v13_apply, e, RefIndex.v11_apply, uitofp_bit]
  simp only [IntOp.cmpi_eq]
  rfl

/-- The count of label k in a patch: zero plus the sum of the one-hot entries over the patch's 64 pixels, summed by
    rows and columns. -/
private theorem v19_at (x1 : X1) (f : Fin 3) (n : Fin 2) (rb cb : Fin 16) (k : Fin 19) :
    val_main_v19 (F := Ideal) x1 (ix4 f n (Cert.Spec.pq rb cb) k)
      = Cert.Spec.cnt (Cert.Spec.blkLb x1 n rb) f cb k := by
  have e : ∀ b : Fin 64, idx_main_v19 (ix4 f n (Cert.Spec.pq rb cb) k) b = ix5 f n (Cert.Spec.pq rb cb) b k :=
    fun b => funext fun a => Fin.ext (by match a with | ⟨0, _⟩ => rfl | ⟨1, _⟩ => rfl | ⟨2, _⟩ => rfl | ⟨3, _⟩ => rfl | ⟨4, _⟩ => rfl)
  rw [val_main_v19_apply, val_main_cst_0_apply]
  simp only [e, Ideal.ofBits_def, Ideal.ofBits_zero_f32, zero_add]
  rw [sum_bq]
  simp only [v18_at]
  rfl

/-- The contraction over the patch's pixels of one-hot entry times feature is the sum, by rows and columns, of
    feature times one-hot entry (commutativity of the product under the sum). -/
private theorem v20_at (x0 : X0) (x1 : X1) (f : Fin 3) (n : Fin 2) (rb cb : Fin 16) (k : Fin 19) (c : Fin 256) :
    val_main_v20 (F := Ideal) x0 x1 (ix5 f n (Cert.Spec.pq rb cb) k c)
      = Cert.Spec.psum (Cert.Spec.blkPx x0 n rb) (Cert.Spec.blkLb x1 n rb) f c cb k := by
  have el : ∀ b : Fin 64, lidx_main_v20 (ix5 f n (Cert.Spec.pq rb cb) k c) b = ix5 f n (Cert.Spec.pq rb cb) b k :=
    fun b => funext fun a => Fin.ext (by match a with | ⟨0, _⟩ => rfl | ⟨1, _⟩ => rfl | ⟨2, _⟩ => rfl | ⟨3, _⟩ => rfl | ⟨4, _⟩ => rfl)
  have er : ∀ b : Fin 64, ridx_main_v20 (ix5 f n (Cert.Spec.pq rb cb) k c) b = ix5 f n (Cert.Spec.pq rb cb) c b :=
    fun b => funext fun a => Fin.ext (by match a with | ⟨0, _⟩ => rfl | ⟨1, _⟩ => rfl | ⟨2, _⟩ => rfl | ⟨3, _⟩ => rfl | ⟨4, _⟩ => rfl)
  rw [val_main_v20_apply]
  simp only [el, er]
  rw [sum_bq]
  simp only [v18_at, v7_at]
  unfold Cert.Spec.psum
  exact Finset.sum_congr rfl fun hi _ => Finset.sum_congr rfl fun wi _ => mul_comm _ _

/-- The average: the per-label sum divided by the count floored at 1. -/
private theorem v25_at (x0 : X0) (x1 : X1) (f : Fin 3) (n : Fin 2) (rb cb : Fin 16) (k : Fin 19) (c : Fin 256) :
    val_main_v25 (F := Ideal) x0 x1 (ix5 f n (Cert.Spec.pq rb cb) k c)
      = Cert.Spec.proto (Cert.Spec.blkPx x0 n rb) (Cert.Spec.blkLb x1 n rb) f c cb k := by
  have e : idx_main_v23 (idx_main_v24 (ix5 f n (Cert.Spec.pq rb cb) k c)) = ix4 f n (Cert.Spec.pq rb cb) k :=
    funext fun a => Fin.ext (by match a with | ⟨0, _⟩ => rfl | ⟨1, _⟩ => rfl | ⟨2, _⟩ => rfl | ⟨3, _⟩ => rfl)
  rw [val_main_v25_apply, val_main_v24_apply, val_main_v23_apply, val_main_v22_apply, val_main_v21_apply,
    val_main_cst_1_apply, e, v20_at, v19_at]
  rfl

/-! ## The second difference in time and its channel-mean absolute value -/

/-- (frame 0 − 2 · frame 1) + frame 2 of the averages. -/
private theorem v36_at (x0 : X0) (x1 : X1) (n : Fin 2) (rb cb : Fin 16) (k : Fin 19) (c : Fin 256) :
    val_main_v36 (F := Ideal) x0 x1 (ix5 (0 : Fin 1) n (Cert.Spec.pq rb cb) k c)
      = Cert.Spec.dd (Cert.Spec.blkPx x0 n rb) (Cert.Spec.blkLb x1 n rb) c cb k := by
  have e0 : idx_main_v30 (ix5 (0 : Fin 1) n (Cert.Spec.pq rb cb) k c) = ix5 (0 : Fin 3) n (Cert.Spec.pq rb cb) k c :=
    funext fun a => Fin.ext (by match a with | ⟨0, _⟩ => rfl | ⟨1, _⟩ => rfl | ⟨2, _⟩ => rfl | ⟨3, _⟩ => rfl | ⟨4, _⟩ => rfl)
  have e1 : idx_main_v31 (ix5 (0 : Fin 1) n (Cert.Spec.pq rb cb) k c) = ix5 (1 : Fin 3) n (Cert.Spec.pq rb cb) k c :=
    funext fun a => Fin.ext (by match a with | ⟨0, _⟩ => rfl | ⟨1, _⟩ => rfl | ⟨2, _⟩ => rfl | ⟨3, _⟩ => rfl | ⟨4, _⟩ => rfl)
  have e2 : idx_main_v35 (ix5 (0 : Fin 1) n (Cert.Spec.pq rb cb) k c) = ix5 (2 : Fin 3) n (Cert.Spec.pq rb cb) k c :=
    funext fun a => Fin.ext (by match a with | ⟨0, _⟩ => rfl | ⟨1, _⟩ => rfl | ⟨2, _⟩ => rfl | ⟨3, _⟩ => rfl | ⟨4, _⟩ => rfl)
  rw [val_main_v36_apply, val_main_v34_apply, val_main_v33_apply, val_main_v30_apply, val_main_v31_apply,
    val_main_v35_apply, val_main_v32_apply, val_main_cst_3_apply, e0, e1, e2, v25_at, v25_at, v25_at]
  rfl

/-- Zero plus the sum over the 256 channels of the absolute second difference, divided by 256. -/
private theorem v40_at (x0 : X0) (x1 : X1) (n : Fin 2) (rb cb : Fin 16) (k : Fin 19) :
    val_main_v40 (F := Ideal) x0 x1 (ix4 (0 : Fin 1) n (Cert.Spec.pq rb cb) k)
      = Cert.Spec.l1 (Cert.Spec.blkPx x0 n rb) (Cert.Spec.blkLb x1 n rb) cb k := by
  have e : ∀ c : Fin 256, idx_main_v38 (ix4 (0 : Fin 1) n (Cert.Spec.pq rb cb) k) c = ix5 (0 : Fin 1) n (Cert.Spec.pq rb cb) k c :=
    fun c => funext fun a => Fin.ext (by match a with | ⟨0, _⟩ => rfl | ⟨1, _⟩ => rfl | ⟨2, _⟩ => rfl | ⟨3, _⟩ => rfl | ⟨4, _⟩ => rfl)
  rw [val_main_v40_apply, val_main_v38_apply, val_main_v39_apply, val_main_cst_4_apply, val_main_cst_5_apply]
  simp only [e, val_main_v37_apply, v36_at, Ideal.ofBits_def, Ideal.ofBits_zero_f32, zero_add]
  rfl

/-- The sum over the unit frame axis has one term. -/
private theorem v41_at (x0 : X0) (x1 : X1) (n : Fin 2) (rb cb : Fin 16) (k : Fin 19) :
    val_main_v41 (F := Ideal) x0 x1 (ix3 n (Cert.Spec.pq rb cb) k)
      = Cert.Spec.l1 (Cert.Spec.blkPx x0 n rb) (Cert.Spec.blkLb x1 n rb) cb k := by
  have e : idx_main_v41 (ix3 n (Cert.Spec.pq rb cb) k) (0 : Fin 1) = ix4 (0 : Fin 1) n (Cert.Spec.pq rb cb) k :=
    funext fun a => Fin.ext (by match a with | ⟨0, _⟩ => rfl | ⟨1, _⟩ => rfl | ⟨2, _⟩ => rfl | ⟨3, _⟩ => rfl)
  rw [val_main_v41_apply, val_main_cst_6_apply, Fin.sum_univ_one, e, v40_at]
  simp only [Ideal.ofBits_def, Ideal.ofBits_zero_f32, zero_add]

/-! ## Validity of a label in a patch -/

/-- The bit "the count is positive" in one frame. -/
private theorem v27_at (x1 : X1) (f : Fin 3) (n : Fin 2) (rb cb : Fin 16) (k : Fin 19) :
    val_main_v27 (F := Ideal) x1 (ix4 f n (Cert.Spec.pq rb cb) k) = 1#1
      ↔ 0 < Cert.Spec.cnt (Cert.Spec.blkLb x1 n rb) f cb k := by
  rw [val_main_v27_apply, val_main_v26_apply, val_main_cst_2_apply, v19_at, Ideal.cmpf_def, Ideal.ofBits_def,
    Ideal.ofBits_zero_f32]
  exact cmp_ogt_zero _

/-- The conjunction over the three frames of those bits, read as a number: 1 where the label occurs in the patch in
    all three frames, else 0. -/
private theorem v29_at (x1 : X1) (n : Fin 2) (rb cb : Fin 16) (k : Fin 19) :
    val_main_v29 (F := Ideal) x1 (ix3 n (Cert.Spec.pq rb cb) k)
      = Cert.Spec.vl (Cert.Spec.blkLb x1 n rb) cb k := by
  rw [val_main_v29_apply, uitofp_bit]
  unfold val_main_v28 val_main_c Cert.Spec.vl
  refine if_congr ?_ rfl rfl
  rw [RefFolds.all_frames]
  constructor
  · intro h
    exact ⟨⟨(v27_at x1 0 n rb cb k).mp (h 0), (v27_at x1 1 n rb cb k).mp (h 1)⟩, (v27_at x1 2 n rb cb k).mp (h 2)⟩
  · rintro ⟨⟨h0, h1⟩, h2⟩ f
    refine (v27_at x1 f n rb cb k).mpr ?_
    match f with
    | ⟨0, _⟩ => exact h0
    | ⟨1, _⟩ => exact h1
    | ⟨2, _⟩ => exact h2

/-! ## A patch's loss and whether it has a valid label -/

/-- Zero plus the sum over the 19 labels of loss times validity. -/
private theorem v43_at (x0 : X0) (x1 : X1) (n : Fin 2) (rb cb : Fin 16) :
    val_main_v43 (F := Ideal) x0 x1 (ix2 n (Cert.Spec.pq rb cb))
      = Cert.Spec.pp (Cert.Spec.blkPx x0 n rb) (Cert.Spec.blkLb x1 n rb) cb := by
  have e : ∀ k : Fin 19, idx_main_v43 (ix2 n (Cert.Spec.pq rb cb)) k = ix3 n (Cert.Spec.pq rb cb) k :=
    fun k => funext fun a => Fin.ext (by match a with | ⟨0, _⟩ => rfl | ⟨1, _⟩ => rfl | ⟨2, _⟩ => rfl)
  rw [val_main_v43_apply, val_main_cst_7_apply]
  simp only [e, val_main_v42_apply, v41_at, v29_at, Ideal.ofBits_def, Ideal.ofBits_zero_f32, zero_add, Ideal.mulf_def]
  rfl

/-- Zero plus the sum over the 19 labels of the validity: the number of valid labels. -/
private theorem v44_at (x1 : X1) (n : Fin 2) (rb cb : Fin 16) :
    val_main_v44 (F := Ideal) x1 (ix2 n (Cert.Spec.pq rb cb))
      = Cert.Spec.nc (Cert.Spec.blkLb x1 n rb) cb := by
  have e : ∀ k : Fin 19, idx_main_v44 (ix2 n (Cert.Spec.pq rb cb)) k = ix3 n (Cert.Spec.pq rb cb) k :=
    fun k => funext fun a => Fin.ext (by match a with | ⟨0, _⟩ => rfl | ⟨1, _⟩ => rfl | ⟨2, _⟩ => rfl)
  rw [val_main_v44_apply, val_main_cst_8_apply]
  simp only [e, v29_at, Ideal.ofBits_def, Ideal.ofBits_zero_f32, zero_add]
  rfl

/-- The patch's loss: where the number of valid labels is positive, the summed loss divided by that number floored at
    1 (times 1), else 0. -/
private theorem v52_at (x0 : X0) (x1 : X1) (n : Fin 2) (rb cb : Fin 16) :
    val_main_v52 (F := Ideal) x0 x1 (ix2 n (Cert.Spec.pq rb cb))
      = Cert.Spec.ls (Cert.Spec.blkPx x0 n rb) (Cert.Spec.blkLb x1 n rb) cb := by
  rw [val_main_v52_apply, val_main_v50_apply, val_main_v51_apply, val_main_v48_apply, val_main_v46_apply,
    val_main_v45_apply, val_main_v47_apply, val_main_v49_apply, val_main_call1_v1_apply, val_main_call1_v0_apply,
    val_main_cst_9_apply, val_main_cst_10_apply, val_main_cst_11_apply, val_main_cst_12_apply, v43_at, v44_at]
  simp only [Ideal.cmpf_def, Ideal.ofBits_def, Ideal.ofBits_zero_f32, select_ogt_zero]
  rfl

/-- The bit "the patch has a valid label". -/
private theorem v54_at (x1 : X1) (n : Fin 2) (rb cb : Fin 16) :
    val_main_v54 (F := Ideal) x1 (ix2 n (Cert.Spec.pq rb cb)) = 1#1
      ↔ 0 < Cert.Spec.nc (Cert.Spec.blkLb x1 n rb) cb := by
  rw [val_main_v54_apply, val_main_v53_apply, val_main_cst_13_apply, v44_at, Ideal.cmpf_def, Ideal.ofBits_def,
    Ideal.ofBits_zero_f32]
  exact cmp_ogt_zero _

/-! ## The two totals over samples, row-blocks and column-blocks -/

/-- The integer count of those bits, cast to a float, is the sum over samples and patches of the indicators; the
    patches are summed by row-block and column-block. -/
private theorem v57_at (x1 : X1) (i : S_.Idx) : val_main_v57 (F := Ideal) x1 i = Cert.Spec.totalCount x1 := by
  have hi := eq_ix0 i
  subst hi
  rw [val_main_v57_apply]
  unfold val_main_v56 val_main_v55 val_main_c_14
  rw [RefFolds.count_cast]
  unfold Cert.Spec.totalCount Cert.Spec.blockCount
  refine Finset.sum_congr rfl fun n _ => ?_
  rw [sum_pq]
  refine Finset.sum_congr rfl fun rb _ => Finset.sum_congr rfl fun cb _ => ?_
  unfold Cert.Spec.ind
  exact if_congr (v54_at x1 n rb cb) rfl rfl

/-- Zero plus the sum of the patch losses over all (sample, patch) pairs, summed by sample, row-block and
    column-block. -/
private theorem v59_at (x0 : X0) (x1 : X1) (i : S_.Idx) :
    val_main_v59 (F := Ideal) x0 x1 i = Cert.Spec.totalLoss x0 x1 := by
  rw [val_main_v59_apply, val_main_cst_16_apply, sum_idx2]
  simp only [Ideal.ofBits_def, Ideal.ofBits_zero_f32, zero_add]
  unfold Cert.Spec.totalLoss Cert.Spec.blockLoss
  refine Finset.sum_congr rfl fun n _ => ?_
  rw [sum_pq]
  exact Finset.sum_congr rfl fun rb _ => Finset.sum_congr rfl fun cb _ => v52_at x0 x1 n rb cb

/-! ## The result: the mean of the patch losses over the patches with a valid label (0 if there is none), times 1 -/

theorem result_eq (x0 : (⟨S3x2x256x128x128, .f32⟩ : BufTy).Contents (Elt Ideal)) (x1 : (⟨S3x2x1x128x128, .i32⟩ : BufTy).Contents (Elt Ideal)) :
    val_main_v63 (F := Ideal) x0 x1 = fun _ => Cert.Spec.result x0 x1 := by
  funext i
  rw [val_main_v63_apply, val_main_v62_apply, val_main_v58_apply, val_main_v61_apply, val_main_v60_apply,
    val_main_call2_v0_apply, val_main_cst_15_apply, val_main_cst_17_apply, val_main_cst_18_apply,
    val_main_cst_19_apply, v57_at, v59_at]
  simp only [Ideal.cmpf_def, Ideal.ofBits_def, Ideal.ofBits_zero_f32, select_ogt_zero]
  rfl

end Cert.ReferenceIdeal.RefValue

end
-- ==== Proof.lean ====
/-
  The certificate of a three-frame temporal-consistency loss over 8 × 8 patches.

  Both programs normalise every pixel's 256 channels by their Euclidean norm (floored at a small constant), average
  the normalised features of each label inside each patch of each frame, take the absolute second difference in time of
  the three frames' averages, average it over the channels, keep the labels present in all three frames, average over
  those labels per patch, and average the patch losses over the patches that have such a label. The kernel walks the
  image one row-block of 8 × 128 pixels at a time and finds the sixteen patches of the row-block with two 0/1 matrices
  (pixel against patch-and-label code, code against patch); the reference cuts the image into patches by a reshape and a
  transpose. Over the extended reals both are the function `Cert.Spec.result` of the two argument arrays, provided every
  label lies in the label range 0 ≤ label < 19: the kernel's code patch · 19 + label is decoded by quotient and remainder,
  which reads a label outside the range as a label of a neighbouring patch, while the reference matches such a label
  with no class. That range is the precondition's second conjunct.

  The frames are the generated ones; `preserves` is the one rewrite's statement (a format change and back is the
  identity over the extended reals); the algebraic claim joins the kernel's run read as a value (Proof/KRun.lean) and the
  reference's run read stage by stage (Proof/RefValue.lean) at `Cert.Spec.result`.
-/
import proofs.«116369_j89309549953719_1_alg».proof.Defs
import proofs.«116369_j89309549953719_1_alg».proof.Proof.Gen.Kernel
import proofs.«116369_j89309549953719_1_alg».proof.Proof.Gen.Kernel.Frame
import proofs.«116369_j89309549953719_1_alg».proof.Proof.Gen.KernelIdeal
import proofs.«116369_j89309549953719_1_alg».proof.Proof.Gen.KernelIdeal.Frame
import proofs.«116369_j89309549953719_1_alg».proof.Proof.Gen.ReferenceIdeal
import proofs.«116369_j89309549953719_1_alg».proof.Proof.Gen.Pre_finite_inputs
import proofs.«116369_j89309549953719_1_alg».proof.Proof.RefRun
import proofs.«116369_j89309549953719_1_alg».proof.Proof.RefRead
import proofs.«116369_j89309549953719_1_alg».proof.Proof.Spec
import proofs.«116369_j89309549953719_1_alg».proof.Proof.PreLabels
import proofs.«116369_j89309549953719_1_alg».proof.Proof.KRun
import proofs.«116369_j89309549953719_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one rewrite: a narrowing to bf16 followed by the widening back, the identity over the extended reals. -/
theorem preserves : Cert.preserves_Kernel_KernelIdeal := IdealRules.truncf_extf.statement _ .f32 .bf16

/-- Under the precondition the labels are in range, so the kernel's result is the loss function of the arguments; the
    reference's is that function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hlab : ∀ (c : Dev Cert.KernelIdeal.nD) i,
      (m ((c.tc : Thread Cert.KernelIdeal.nD Cert.KernelIdeal.τ).loc Cert.KernelIdeal.main_arg1) i).toNat < 19 :=
    fun c i => Cert.PreLabels.labels_lt _ _ (hpre c) i
  refine ⟨fun c => fun _ => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KV.run m ρ hlab, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
